-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S8192x1 : Shape := ⟨2, ![8192, 1]⟩
abbrev S1x8192 : Shape := ⟨2, ![1, 8192]⟩
abbrev S1x1 : Shape := ⟨2, ![1, 1]⟩
abbrev S512x128 : Shape := ⟨2, ![512, 128]⟩
abbrev S512x1 : Shape := ⟨2, ![512, 1]⟩
abbrev S1x512 : Shape := ⟨2, ![1, 512]⟩
abbrev S128x512 : Shape := ⟨2, ![128, 512]⟩
abbrev S512x512 : Shape := ⟨2, ![512, 512]⟩
abbrev S512 : Shape := ⟨1, ![512]⟩
abbrev S1 : Shape := ⟨1, ![1]⟩
abbrev S_ : Shape := ⟨0, ![]⟩

abbrev nBuf : Space → Nat
  | .hbm => 6
  | .vmem => 9
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S1x1, .f32⟩
  | .hbm, ⟨5, _⟩ => ⟨S_, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x1, .i32⟩
  | .local _ .vmem, ⟨5, _⟩ => ⟨S512x1, .i32⟩
  | .local _ .vmem, ⟨6, _⟩ => ⟨S1x512, .i32⟩
  | .local _ .vmem, ⟨7, _⟩ => ⟨S1x512, .i32⟩
  | .local _ .vmem, ⟨8, _⟩ => ⟨S1x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  shapeCasts_S8192_S8192x1 : S8192.ShapeCasts S8192x1
  shapeCasts_S8192_S1x8192 : S8192.ShapeCasts S1x8192
  inb_S1x1_S1x1_0_0 : ∀ a, (![0, 0] : Fin 2 → Nat) a + S1x1.size a ≤ S1x1.size a
  h_S1x1 : 0 < S1x1.numel
  inb_S512x128_S512x128_0_0 : ∀ a, (![0, 0] : Fin 2 → Nat) a + S512x128.size a ≤ S512x128.size a
  h_S512x128 : 0 < S512x128.numel
  bitsLt_bf16_f32 : FTy.bits .bf16 < FTy.bits .f32
  transposes_S512x128_p1_0_S128x512 : S512x128.Transposes [1, 0] S128x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  natLt_1_32 : 1 < 32
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  reduces_S512x1_S1 : S512x1.Reduces [0] S1
  shapeCasts_S1_S1x1 : S1.ShapeCasts S1x1
  shapeCasts_S1x1_S1x1 : S1x1.ShapeCasts S1x1
  shapeCasts_S1x1_S_ : S1x1.ShapeCasts S_
  dot_S512x128_S128x512_S512x512_1_0_0_1_n_n_wf : DotDims.WF S512x128 S128x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .f32 = 32 ∨ (Rect.block (s := S8192x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S8192x128.size a
  hwx0_1 : ∀ i : grid0.Coords, EltTy.bits .f32 = 32 ∨ (Rect.block (s := S8192x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .i32 = 32 ∨ (Rect.block (s := S8192x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .i32 = 32 ∨ (Rect.block (s := S1x8192) S1x512.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192 : Shape := ⟨1, ![8192]⟩
abbrev S8192x8192 : Shape := ⟨2, ![8192, 8192]⟩
abbrev S1x8192 : Shape := ⟨2, ![1, 8192]⟩
abbrev S8192x1 : Shape := ⟨2, ![8192, 1]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x8192, .f32⟩
  | .hbm, ⟨3, _⟩ => ⟨S1x8192, .i32⟩
  | .hbm, ⟨4, _⟩ => ⟨S8192x1, .i32⟩
  | .hbm, ⟨5, _⟩ => ⟨S8192x8192, .i32⟩
  | .hbm, ⟨6, _⟩ => ⟨S8192x8192, .i32⟩
  | .hbm, ⟨7, _⟩ => ⟨S8192x8192, .i1⟩
  | .hbm, ⟨8, _⟩ => ⟨S8192x8192, .f32⟩
  | .hbm, ⟨9, _⟩ => ⟨S8192x8192, .i32⟩
  | .hbm, ⟨10, _⟩ => ⟨S8192x8192, .i32⟩
  | .hbm, ⟨11, _⟩ => ⟨S_, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S8192_S8192x1_0 : S8192.BroadcastsInDim S8192x1 (![0] : Fin 1 → Fin S8192x1.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  h_S_ : 0 < S_.numel
  dot_S8192x128_S8192x128_S8192x8192_1_1_0_0_n_n_wf : DotDims.WF S8192x128 S8192x128 S8192x8192 [1] [1] [0] [0] [] []

variable [Facts₀]

def dot_S8192x128_S8192x128_S8192x8192_1_1_0_0_n_n : DotDims S8192x128 S8192x128 S8192x8192 where
  lhsContracting := [1]
  rhsContracting := [1]
  lhsNonContracting := [0]
  rhsNonContracting := [0]
  lhsBatch := []
  rhsBatch := []
  wf := dot_S8192x128_S8192x128_S8192x8192_1_1_0_0_n_n_wf

class Facts : Prop extends Facts₀ where

variable [Facts]
-- ==== Proof.K.Conds.lean ====
/-
  The two conditionals of the kernel body, as propositions over the grid coordinates, and where on the
  16 × 16 grid each holds: the accumulator is reset at the first point only, and divided by the number of
  entries at the last point only.  Also the staging memrefs the body is called with at a point.
-/
import proofs.«119334_j11682311045878_1_alg».proof.Proof.Gen.Kernel.Launch
import proofs.«119334_j11682311045878_1_alg».proof.Proof.Gen.Kernel.Skeleton
import proofs.«119334_j11682311045878_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body resets the accumulator: both grid coordinates are zero. -/
abbrev condFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- The body divides the accumulator: both grid coordinates are fifteen. -/
abbrev condLast (i : grid0.Coords) : Prop :=
  (Scalar.cmpi .ne (Scalar.extui (Scalar.andi (Scalar.cmpi .eq (BitVec.ofNat 32 (i 0).val) 15#32) (Scalar.cmpi .eq (BitVec.ofNat 32 (i 1).val) 15#32))) 0#32) = 1#1

/-- Of the 256 points only point 0 resets. -/
theorem hcondFirst : ∀ t : Fin cfg0.N, condFirst (grid0.coords t) ↔ t.val = 0 :=
  (by decide +kernel : ∀ t : Fin grid0.N, condFirst (grid0.coords t) ↔ t.val = 0)

/-- Of the 256 points only point 255 divides. -/
theorem hcondLast : ∀ t : Fin cfg0.N, condLast (grid0.coords t) ↔ t.val = 255 :=
  (by decide +kernel : ∀ t : Fin grid0.N, condLast (grid0.coords t) ↔ t.val = 255)

/-- One staging buffer of the output window, through which its contents are stated. -/
abbrev VOut : View sig .tc .vmem S1x1 .f32 := (Memref.whole cc0_stg4_0 : Memref sig .tc .vmem S1x1 .f32).view

/-- Each window's current staging memref at point `t`, as the pipeline passes it, and its wholeness. -/
abbrev ms0 (t : Fin cfg0.N) : Memref sig .tc .vmem S512x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)

end Cert.Kernel.Frame

end
-- ==== Proof.K.RunFirst.lean ====
/-
  The kernel body run whole at the first point: the accumulator is reset to zero, then gains the tile's total.
-/
import proofs.«119334_j11682311045878_1_alg».proof.Proof.K.Conds

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- What the body's stores leave in the output's staging memref, as pieces (last first), with the proof that on
    whole staging memrefs, the inputs' at their contents, the body runs to the continuation holding the inputs'
    as they were and the output's buffer with those pieces written. -/
noncomputable def kernelRunFirst (c : Dev nD) (i : grid0.Coords)
    (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (hc0 : condFirst i) (hc1 : ¬condLast i)
    (x0 : Vec F S512x128 .f32) (x1 : Vec F S512x128 .f32) (l2 : Vec F S512x1 .i32) (l3 : Vec F S1x512 .i32) :
    { L : List (View.Piece (Elt F) S1x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare l2 ∗ owns (c : Thread nD τ) arg5 fullShare l3
            ∗ (∃ d, owns (c : Thread nD τ) arg6 fullShare d)
            ∗ (iprop(owns (c : Thread nD τ) arg2 fullShare x0 ∗ owns (c : Thread nD τ) arg3 fullShare x1
                ∗ owns (c : Thread nD τ) arg4 fullShare l2 ∗ owns (c : Thread nD τ) arg5 fullShare l3
                ∗ (∃ f, arg6.view.loc (c : Thread nD τ) ↦[arg6.view.set]{fullShare} arg6.view.writes (Elt F) f L)) -∗ K ⟨⟩))
          ⊢ wp frame (wpE (defs₀ (F := F)) Variants.none c none) E (cc0_kernel i arg2 harg2 arg3 harg3 arg4 harg4 arg5 harg5 arg6 harg6) K } := by
  refine ⟨?_, fun E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Frame

end
-- ==== Proof.K.RunMid.lean ====
/-
  The kernel body run whole at a point that neither resets nor divides: the accumulator, read at what the point before left, gains the tile's total.
-/
import proofs.«119334_j11682311045878_1_alg».proof.Proof.K.Conds

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- What the body's stores leave in the output's staging memref, as pieces (last first), with the proof that on
    whole staging memrefs, the inputs' at their contents, the body runs to the continuation holding the inputs'
    as they were and the output's buffer with those pieces written. -/
noncomputable def kernelRunMid (c : Dev nD) (i : grid0.Coords)
    (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (hc0 : ¬condFirst i) (hc1 : ¬condLast i)
    (x0 : Vec F S512x128 .f32) (x1 : Vec F S512x128 .f32) (l2 : Vec F S512x1 .i32) (l3 : Vec F S1x512 .i32) (xo : Vec F S1x1 .f32) :
    { L : List (View.Piece (Elt F) S1x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare l2 ∗ owns (c : Thread nD τ) arg5 fullShare l3
            ∗ owns (c : Thread nD τ) arg6 fullShare xo
            ∗ (iprop(owns (c : Thread nD τ) arg2 fullShare x0 ∗ owns (c : Thread nD τ) arg3 fullShare x1
                ∗ owns (c : Thread nD τ) arg4 fullShare l2 ∗ owns (c : Thread nD τ) arg5 fullShare l3
                ∗ (∃ f, arg6.view.loc (c : Thread nD τ) ↦[arg6.view.set]{fullShare} arg6.view.writes (Elt F) f L)) -∗ K ⟨⟩))
          ⊢ wp frame (wpE (defs₀ (F := F)) Variants.none c none) E (cc0_kernel i arg2 harg2 arg3 harg3 arg4 harg4 arg5 harg5 arg6 harg6) K } := by
  refine ⟨?_, fun E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1
    obtain rfl := harg4.eq_unread hf2; obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Frame

end
-- ==== Proof.K.RunLast.lean ====
/-
  The kernel body run whole at the last point: the accumulator gains the tile's total and is then divided by the number of entries.
-/
import proofs.«119334_j11682311045878_1_alg».proof.Proof.K.Conds

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- What the body's stores leave in the output's staging memref, as pieces (last first), with the proof that on
    whole staging memrefs, the inputs' at their contents, the body runs to the continuation holding the inputs'
    as they were and the output's buffer with those pieces written. -/
noncomputable def kernelRunLast (c : Dev nD) (i : grid0.Coords)
    (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (hc0 : ¬condFirst i) (hc1 : condLast i)
    (x0 : Vec F S512x128 .f32) (x1 : Vec F S512x128 .f32) (l2 : Vec F S512x1 .i32) (l3 : Vec F S1x512 .i32) (xo : Vec F S1x1 .f32) :
    { L : List (View.Piece (Elt F) S1x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare l2 ∗ owns (c : Thread nD τ) arg5 fullShare l3
            ∗ owns (c : Thread nD τ) arg6 fullShare xo
            ∗ (iprop(owns (c : Thread nD τ) arg2 fullShare x0 ∗ owns (c : Thread nD τ) arg3 fullShare x1
                ∗ owns (c : Thread nD τ) arg4 fullShare l2 ∗ owns (c : Thread nD τ) arg5 fullShare l3
                ∗ (∃ f, arg6.view.loc (c : Thread nD τ) ↦[arg6.view.set]{fullShare} arg6.view.writes (Elt F) f L)) -∗ K ⟨⟩))
          ⊢ wp frame (wpE (defs₀ (F := F)) Variants.none c none) E (cc0_kernel i arg2 harg2 arg3 harg3 arg4 harg4 arg5 harg5 arg6 harg6) K } := by
  refine ⟨?_, fun E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1
    obtain rfl := harg4.eq_unread hf2; obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Frame

end
-- ==== Proof.K.Accum.lean ====
/-
  The accumulation.  At every point the body adds the tile's total to the one-entry output buffer, which no
  write-back touches before the last point; so what the buffer holds after point n is determined by recursion on
  n: the reset-and-add at point 0, the add over what point n − 1 left at the points in between, the add followed
  by the division at point 255.  This module states that recursion, the pipeline's proof data over it — the two
  windows on the embeddings array each hold half of its share — and the body obligation at every point.
-/
import proofs.«119334_j11682311045878_1_alg».proof.Proof.K.RunFirst
import proofs.«119334_j11682311045878_1_alg».proof.Proof.K.RunMid
import proofs.«119334_j11682311045878_1_alg».proof.Proof.K.RunLast

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not: unfetched, the
    block index has not moved. -/

theorem before_in0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What each case leaves in the output buffer -/

/-- The pieces the first-point run writes tile the one-entry block, so they cover it. -/
theorem coverFirst (c : Dev nD) (i : grid0.Coords)
    (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (hc0 : condFirst i) (hc1 : ¬condLast i)
    (x0 : Vec F S512x128 .f32) (x1 : Vec F S512x128 .f32) (l2 : Vec F S512x1 .i32) (l3 : Vec F S1x512 .i32) (y : S1x1.Idx) :
    ∃ pc ∈ (kernelRunFirst c i arg2 harg2 arg3 harg3 arg4 harg4 arg5 harg5 arg6 harg6 hc0 hc1 x0 x1 l2 l3).1, y ∈ pc.1.set :=
  View.cover_of_tiledL (kernelRunFirst c i arg2 harg2 arg3 harg3 arg4 harg4 arg5 harg5 arg6 harg6 hc0 hc1 x0 x1 l2 l3).1 S1x1.size (by sl_kernel_rfl) y

/-- What the first-point run leaves in the output's staging buffer: its pieces read back. -/
def outFirst (c : Dev nD) (i : grid0.Coords)
    (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (hc0 : condFirst i) (hc1 : ¬condLast i)
    (x0 : Vec F S512x128 .f32) (x1 : Vec F S512x128 .f32) (l2 : Vec F S512x1 .i32) (l3 : Vec F S1x512 .i32) : Vec F S1x1 .f32 :=
  VOut.read (Elt F) (VOut.writes (Elt F) VOut.junk (kernelRunFirst c i arg2 harg2 arg3 harg3 arg4 harg4 arg5 harg5 arg6 harg6 hc0 hc1 x0 x1 l2 l3).1)

/-- The pieces the mid-point run writes tile the one-entry block, so they cover it. -/
theorem coverMid (c : Dev nD) (i : grid0.Coords)
    (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (hc0 : ¬condFirst i) (hc1 : ¬condLast i)
    (x0 : Vec F S512x128 .f32) (x1 : Vec F S512x128 .f32) (l2 : Vec F S512x1 .i32) (l3 : Vec F S1x512 .i32) (xo : Vec F S1x1 .f32) (y : S1x1.Idx) :
    ∃ pc ∈ (kernelRunMid c i arg2 harg2 arg3 harg3 arg4 harg4 arg5 harg5 arg6 harg6 hc0 hc1 x0 x1 l2 l3 xo).1, y ∈ pc.1.set :=
  View.cover_of_tiledL (kernelRunMid c i arg2 harg2 arg3 harg3 arg4 harg4 arg5 harg5 arg6 harg6 hc0 hc1 x0 x1 l2 l3 xo).1 S1x1.size (by sl_kernel_rfl) y

/-- What the mid-point run leaves in the output's staging buffer: its pieces read back. -/
def outMid (c : Dev nD) (i : grid0.Coords)
    (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (hc0 : ¬condFirst i) (hc1 : ¬condLast i)
    (x0 : Vec F S512x128 .f32) (x1 : Vec F S512x128 .f32) (l2 : Vec F S512x1 .i32) (l3 : Vec F S1x512 .i32) (xo : Vec F S1x1 .f32) : Vec F S1x1 .f32 :=
  VOut.read (Elt F) (VOut.writes (Elt F) VOut.junk (kernelRunMid c i arg2 harg2 arg3 harg3 arg4 harg4 arg5 harg5 arg6 harg6 hc0 hc1 x0 x1 l2 l3 xo).1)

/-- The pieces the last-point run writes tile the one-entry block, so they cover it. -/
theorem coverLast (c : Dev nD) (i : grid0.Coords)
    (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (hc0 : ¬condFirst i) (hc1 : condLast i)
    (x0 : Vec F S512x128 .f32) (x1 : Vec F S512x128 .f32) (l2 : Vec F S512x1 .i32) (l3 : Vec F S1x512 .i32) (xo : Vec F S1x1 .f32) (y : S1x1.Idx) :
    ∃ pc ∈ (kernelRunLast c i arg2 harg2 arg3 harg3 arg4 harg4 arg5 harg5 arg6 harg6 hc0 hc1 x0 x1 l2 l3 xo).1, y ∈ pc.1.set :=
  View.cover_of_tiledL (kernelRunLast c i arg2 harg2 arg3 harg3 arg4 harg4 arg5 harg5 arg6 harg6 hc0 hc1 x0 x1 l2 l3 xo).1 S1x1.size (by sl_kernel_rfl) y

/-- What the last-point run leaves in the output's staging buffer: its pieces read back. -/
def outLast (c : Dev nD) (i : grid0.Coords)
    (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (hc0 : ¬condFirst i) (hc1 : condLast i)
    (x0 : Vec F S512x128 .f32) (x1 : Vec F S512x128 .f32) (l2 : Vec F S512x1 .i32) (l3 : Vec F S1x512 .i32) (xo : Vec F S1x1 .f32) : Vec F S1x1 .f32 :=
  VOut.read (Elt F) (VOut.writes (Elt F) VOut.junk (kernelRunLast c i arg2 harg2 arg3 harg3 arg4 harg4 arg5 harg5 arg6 harg6 hc0 hc1 x0 x1 l2 l3 xo).1)

/-! ## What the output buffer holds after each point -/

/-- The output's staging buffer after the body at position `n`, by recursion on `n`. -/
def outsAt0 (c : Dev nD) : (n : ℕ) → n < cfg0.N → Vec F S1x1 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩)
      ((hcondFirst ⟨0, hn⟩).mpr rfl) (fun h => absurd ((hcondLast ⟨0, hn⟩).mp h) (show ¬ (0 : ℕ) = 255 by decide))
      (iblk V c 0 ⟨0, hn⟩) (iblk V c 1 ⟨0, hn⟩) (iblk V c 2 ⟨0, hn⟩) (iblk V c 3 ⟨0, hn⟩)
  | n + 1, hn =>
    if h1 : n + 1 = 255 then
      outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩)
        (fun h => absurd ((hcondFirst ⟨n + 1, hn⟩).mp h) (Nat.succ_ne_zero n)) ((hcondLast ⟨n + 1, hn⟩).mpr h1)
        (iblk V c 0 ⟨n + 1, hn⟩) (iblk V c 1 ⟨n + 1, hn⟩) (iblk V c 2 ⟨n + 1, hn⟩) (iblk V c 3 ⟨n + 1, hn⟩) (outsAt0 c n (Nat.lt_of_succ_lt hn))
    else
      outMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩)
        (fun h => absurd ((hcondFirst ⟨n + 1, hn⟩).mp h) (Nat.succ_ne_zero n)) (fun h => h1 ((hcondLast ⟨n + 1, hn⟩).mp h))
        (iblk V c 0 ⟨n + 1, hn⟩) (iblk V c 1 ⟨n + 1, hn⟩) (iblk V c 2 ⟨n + 1, hn⟩) (iblk V c 3 ⟨n + 1, hn⟩) (outsAt0 c n (Nat.lt_of_succ_lt hn))

theorem outsAt0_first (c : Dev nD) (t : Fin cfg0.N) (h0 : t.val = 0) :
    outsAt0 V c t.val t.isLt = outFirst c (grid0.coords t) (ms0 t) (hs0 t) (ms1 t) (hs1 t) (ms2 t) (hs2 t) (ms3 t) (hs3 t) (ms4 t) (hs4 t)
      ((hcondFirst t).mpr h0) (fun h => absurd ((hcondLast t).mp h) (by omega)) (iblk V c 0 t) (iblk V c 1 t) (iblk V c 2 t) (iblk V c 3 t) := by
  obtain ⟨n, hn⟩ := t
  cases n with
  | zero => exact rfl
  | succ n => exact absurd h0 (Nat.succ_ne_zero n)

theorem outsAt0_last (c : Dev nD) (t : Fin cfg0.N) (h1 : t.val = 255) :
    outsAt0 V c t.val t.isLt = outLast c (grid0.coords t) (ms0 t) (hs0 t) (ms1 t) (hs1 t) (ms2 t) (hs2 t) (ms3 t) (hs3 t) (ms4 t) (hs4 t)
      (fun h => absurd ((hcondFirst t).mp h) (by omega)) ((hcondLast t).mpr h1) (iblk V c 0 t) (iblk V c 1 t) (iblk V c 2 t) (iblk V c 3 t)
      (outsAt0 V c (t.val - 1) (Nat.lt_of_le_of_lt (Nat.sub_le _ _) t.isLt)) := by
  obtain ⟨n, hn⟩ := t
  cases n with
  | zero => exact absurd h1 (show ¬ (0 : ℕ) = 255 by decide)
  | succ n => exact (dif_pos h1).trans rfl

theorem outsAt0_mid (c : Dev nD) (t : Fin cfg0.N) (h0 : t.val ≠ 0) (h1 : t.val ≠ 255) :
    outsAt0 V c t.val t.isLt = outMid c (grid0.coords t) (ms0 t) (hs0 t) (ms1 t) (hs1 t) (ms2 t) (hs2 t) (ms3 t) (hs3 t) (ms4 t) (hs4 t)
      (fun h => h0 ((hcondFirst t).mp h)) (fun h => h1 ((hcondLast t).mp h)) (iblk V c 0 t) (iblk V c 1 t) (iblk V c 2 t) (iblk V c 3 t)
      (outsAt0 V c (t.val - 1) (Nat.lt_of_le_of_lt (Nat.sub_le _ _) t.isLt)) := by
  obtain ⟨n, hn⟩ := t
  cases n with
  | zero => exact absurd rfl h0
  | succ n => exact (dif_neg h1).trans rfl

/-! ## The pipeline's proof data -/

/-- The share of its array each input window holds: the embeddings array is read through two windows, each
    holding half of it; the two label arrays are each one window's, whole. -/
def qs : Fin 5 → PosShare TreeShare
  | ⟨0, _⟩ => fullShare.left
  | ⟨1, _⟩ => fullShare.right
  | _ => fullShare

/-- The proof data of the pipeline on core `c`: the arrays as the region finds them; after the body at point `t`
    each input's buffer at its block and the output's at `outsAt0`; the invariant the scoped rest and the
    generator register, untouched; nothing owed. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outsAt0 V c t.val t.isLt
  Φ _ := Pipeline.ΦA spec0 c
  q := qs
  owed _ := 0

theorem A_eq (c : Dev nD) (w : Fin cfg0.W) : (dat0 V c).A w = V c (Pipeline.arrRef spec0 w) := by
  dsimp only [dat0]

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = iblk V c 3 t := by dsimp only [dat0]
theorem after_4 (c : Dev nD) (t : Fin cfg0.N) : (dat0 V c).after 4 t = outsAt0 V c t.val t.isLt := by dsimp only [dat0]

theorem before_0 (c : Dev nD) (t : Fin cfg0.N) (d) : (dat0 V c).before 0 t d = iblk V c 0 t :=
  before_in0_of V (dat0 V c) (A_eq V c 0) (after_0 V c) t d
theorem before_1 (c : Dev nD) (t : Fin cfg0.N) (d) : (dat0 V c).before 1 t d = iblk V c 1 t :=
  before_in1_of V (dat0 V c) (A_eq V c 1) (after_1 V c) t d
theorem before_2 (c : Dev nD) (t : Fin cfg0.N) (d) : (dat0 V c).before 2 t d = iblk V c 2 t :=
  before_in2_of V (dat0 V c) (A_eq V c 2) (after_2 V c) t d
theorem before_3 (c : Dev nD) (t : Fin cfg0.N) (d) : (dat0 V c).before 3 t d = iblk V c 3 t :=
  before_in3_of V (dat0 V c) (A_eq V c 3) (after_3 V c) t d

/-- Past the first point the output's staging buffer holds what the body left at the point before: the buffer is
    written back at the last point only, the window is live and uncut. -/
theorem before_4 (c : Dev nD) (t : Fin cfg0.N) (h0 : t.val ≠ 0) (d) :
    (dat0 V c).before 4 t d = outsAt0 V c (t.val - 1) (Nat.lt_of_le_of_lt (Nat.sub_le _ _) t.isLt) := by
  have hN : t.val < 256 := lt_of_lt_of_eq t.isLt (show cfg0.N = 256 from N_0)
  rw [Dat.before_out_kept _ 4 rfl t h0 (Bool.eq_false_iff.mpr fun h => by have := (flush0_4 _).mp h; dsimp only at this; omega)
    (fun _ => rfl) (fun _ _ => rfl)]
  dsimp only [dat0]

/-! ## The body obligation, at a generic point -/

def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d))
    ∗ (∃ d, owns (c : Thread nD τ) (ms4 t) fullShare ((dat0 V c).before 4 t d)))

def bodyPost (c : Dev nD) (t : Fin cfg0.N) : sProp 𝕄 :=
  iprop((dat0 V c).Φ t.succ ∗ (dat0 V c).owesAt () t.succ
    ∗ owns (c : Thread nD τ) (ms0 t) fullShare ((dat0 V c).after 0 t)
    ∗ owns (c : Thread nD τ) (ms1 t) fullShare ((dat0 V c).after 1 t)
    ∗ owns (c : Thread nD τ) (ms2 t) fullShare ((dat0 V c).after 2 t)
    ∗ owns (c : Thread nD τ) (ms3 t) fullShare ((dat0 V c).after 3 t)
    ∗ owns (c : Thread nD τ) (ms4 t) fullShare ((dat0 V c).after 4 t))

set_option maxHeartbeats 1600000 in
/-- The body at any point: the inputs' memrefs hold their blocks; the point is the first, the last or one in
    between, and past the first the output's buffer holds what the point before left; so that case's run applies. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat0 V c).Φ t.succ = (dat0 V c).Φ t.castSucc from rfl,
    show (dat0 V c).owesAt () t.succ = (dat0 V c).owesAt () t.castSucc from rfl,
    after_0, after_1, after_2, after_3, after_4]
  have hN : t.val < 256 := lt_of_lt_of_eq t.isLt (show cfg0.N = 256 from N_0)
  by_cases h0 : t.val = 0
  · rw [outsAt0_first V c t h0]
    unfold outFirst
    iintro ⟨HΦ, Ho, ⟨%d0, H0⟩, ⟨%d1, H1⟩, ⟨%d2, H2⟩, ⟨%d3, H3⟩, ⟨%d4, H4⟩⟩
    iapply ((kernelRunFirst c (grid0.coords t) _ _ _ _ _ _ _ _ _ _ ((hcondFirst t).mpr h0) (fun h => absurd ((hcondLast t).mp h) (by omega))
      (iblk V c 0 t) (iblk V c 1 t) (iblk V c 2 t) (iblk V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirst c _ _ _ _ _ _ _ _ _ _ _ _ _ _ _ _ _)
  · simp only [before_4 V c t h0]
    by_cases h1 : t.val = 255
    · rw [outsAt0_last V c t h1]
      unfold outLast
      iintro ⟨HΦ, Ho, ⟨%d0, H0⟩, ⟨%d1, H1⟩, ⟨%d2, H2⟩, ⟨%d3, H3⟩, ⟨%d4, H4⟩⟩
      iapply ((kernelRunLast c (grid0.coords t) _ _ _ _ _ _ _ _ _ _ (fun h => h0 ((hcondFirst t).mp h)) ((hcondLast t).mpr h1)
        (iblk V c 0 t) (iblk V c 1 t) (iblk V c 2 t) (iblk V c 3 t) _).2 Set.univ _)
      isplitl [H0]; · iexact H0
      isplitl [H1]; · iexact H1
      isplitl [H2]; · iexact H2
      isplitl [H3]; · iexact H3
      isplitl [H4]; · iexact H4
      iintro ⟨H0, H1, H2, H3, ⟨%e4, H4⟩⟩
      isplitl [HΦ]; · iexact HΦ
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLast c _ _ _ _ _ _ _ _ _ _ _ _ _ _ _ _ _ _)
    · rw [outsAt0_mid V c t h0 h1]
      unfold outMid
      iintro ⟨HΦ, Ho, ⟨%d0, H0⟩, ⟨%d1, H1⟩, ⟨%d2, H2⟩, ⟨%d3, H3⟩, ⟨%d4, H4⟩⟩
      iapply ((kernelRunMid c (grid0.coords t) _ _ _ _ _ _ _ _ _ _ (fun h => h0 ((hcondFirst t).mp h)) (fun h => h1 ((hcondLast t).mp h))
        (iblk V c 0 t) (iblk V c 1 t) (iblk V c 2 t) (iblk V c 3 t) _).2 Set.univ _)
      isplitl [H0]; · iexact H0
      isplitl [H1]; · iexact H1
      isplitl [H2]; · iexact H2
      isplitl [H3]; · iexact H3
      isplitl [H4]; · iexact H4
      iintro ⟨H0, H1, H2, H3, ⟨%e4, H4⟩⟩
      isplitl [HΦ]; · iexact HΦ
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverMid c _ _ _ _ _ _ _ _ _ _ _ _ _ _ _ _ _ _)

/-- The library's body obligation, at every point. -/
theorem body_obligation (c : Dev nD) : BodyObligation (dat0 (F := F) V c) (defs₀ (F := F)) Variants.none () Set.univ := fun t => by
  rw [bigSep_W0, bigSep_W0]
  exact sound_body V c t

end Cert.Kernel.Frame

end
-- ==== Proof.K.Shares.lean ====
/-
  The embeddings array is handed to the kernel twice: window 0 reads its row blocks, window 1 its column blocks.
  At the region's entry the array's full share is dealt to the two windows, half each; the label arrays and the
  result array are each one window's, whole.  At the exit the two halves, both still at the entry contents, are
  joined back.  This module states both directions between the distinct buffers behind the windows and the
  pipeline's per-window holdings.
-/
import proofs.«119334_j11682311045878_1_alg».proof.Proof.K.Accum

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the five windows' arrays, one by one. -/
theorem arrBufs_list (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      = iprop((((c : Thread nD τ).loc main_arg0) ↦{fullShare} X main_arg0) ∗ (((c : Thread nD τ).loc main_v0) ↦{fullShare} X main_v0)
          ∗ (((c : Thread nD τ).loc main_v1) ↦{fullShare} X main_v1) ∗ (((c : Thread nD τ).loc main_v2) ↦{fullShare} X main_v2)) := by
  unfold Pipeline.arrBufs
  exact bigSep_eq_bigSepL_of_eq [main_arg0, main_v0, main_v1, main_v2] (by decide) (by decide) _

/-- The pipeline's holdings of its windows' arrays, one by one: the embeddings array twice, at the two halves. -/
theorem arrays_list (c : Dev nD) (G : (w : Fin cfg0.W) → Buf (Elt F) ((cfg0.win w).arr.view.loc (c : Thread nD τ))) :
    ((dat0 V c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_v1) ↦{fullShare} G 3)
          ∗ (((c : Thread nD τ).loc main_v2) ↦{fullShare} G 4)) := by
  unfold Dat.arrays
  rw [bigSep_W0]
  rw [(arr_whole0 0).set_eq_univ, (arr_whole0 2).set_eq_univ, (arr_whole0 3).set_eq_univ, (arr_whole0 4).set_eq_univ]
  rfl

/-- ENTRY: the buffers behind the arrays, whole at the entry contents, make the pipeline's holdings at those contents. -/
theorem arrays_of_arrBufs (c : Dev nD) (G : (w : Fin cfg0.W) → Buf (Elt F) ((cfg0.win w).arr.view.loc (c : Thread nD τ)))
    (hG : ∀ w, G w = V c (Pipeline.arrRef spec0 w)) :
    (Pipeline.arrBufs (Ix := Unit) (Name := ℕ) (U := UR sig nD τ) (Lvl := ℕ) spec0 c (V c) : sProp 𝕄) ⊢ (dat0 V c).arrays G := by
  rw [arrBufs_list, arrays_list, hG 0, hG 1, hG 2, hG 3, hG 4]
  iintro ⟨Ha, H0, H1, H2⟩
  ihave Hs := (pointsTo_share (PosShare.mem_left_op_right fullShare)).1 $$ Ha
  icases Hs with ⟨Hl, Hr⟩
  isplitl [Hl]; · iexact Hl
  isplitl [Hr]; · iexact Hr
  isplitl [H0]; · iexact H0
  isplitl [H1]; · iexact H1
  iexact H2

/-- EXIT: the pipeline's holdings, the two halves of the embeddings array at one contents, make the buffers behind
    the arrays whole at contents that agree with them. -/
theorem arrBufs_of_arrays (c : Dev nD) (G : (w : Fin cfg0.W) → Buf (Elt F) ((cfg0.win w).arr.view.loc (c : Thread nD τ)))
    (X : (b : Ref sig .tc) → Buf (Elt F) ((c : Thread nD τ).loc b))
    (h0 : G 0 = X main_arg0) (h1 : G 1 = X main_arg0) (h2 : G 2 = X main_v0) (h3 : G 3 = X main_v1) (h4 : G 4 = X main_v2) :
    ((dat0 V c).arrays G : sProp 𝕄) ⊢ Pipeline.arrBufs (Ix := Unit) (Name := ℕ) (U := UR sig nD τ) (Lvl := ℕ) spec0 c X := by
  rw [arrBufs_list, arrays_list, h0, h1, h2, h3, h4]
  iintro ⟨Hl, Hr, H0, H1, H2⟩
  isplitl [Hl Hr]
  · iapply (pointsTo_share (PosShare.mem_left_op_right fullShare)).2
    isplitl [Hl] <;> iassumption
  isplitl [H0]; · iexact H0
  isplitl [H1]; · iexact H1
  iexact H2

end Cert.Kernel.Frame

end
-- ==== Proof.K.Region.lean ====
/-
  The run of @main: two reshapes of the labels on the host, the kernel region, one reshape of the result.  Between
  two items the core holds every unscoped buffer whole at contents this module names: the launch memory, then the
  host reshapes applied, then the result array at what the region's one write-back leaves, then the last reshape
  applied.  The region is entered by dealing the embeddings array's share to its two windows and left by joining
  the halves; every weakly fair execution terminates, with the result at the last reshape of what the region
  left and both arguments as launched.
-/
import proofs.«119334_j11682311045878_1_alg».proof.Proof.K.Shares
import Idealize.ShloMosaic.Lib.Pipeline.RegionsLoop
import Idealize.ShloMosaic.Lib.Pipeline.FrameSuffix

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the two label reshapes (the region's entry). -/
abbrev W1 : Dev nD → Valuation τ sig (Elt F) := fun c => StableHlo.after hostOps0 (W0 m ρ c)
/-- The same read at the TensorCore's references (what the region's proof data take). -/
abbrev V1 : (c : Dev nD) → (b : Ref sig .tc) → Buf (Elt F) ((c : Thread nD τ).loc b) := fun c b => W1 m ρ c b

/-- What the region leaves in the result array: the entry contents with the last point's block written back. -/
def outArr (c : Dev nD) : Buf (Elt F) ((c : Thread nD τ).loc main_v2) := (dat0 (V1 m ρ) c).arrAt 4 cfg0.N

/-- At the region's exit: the result array at what the pipeline leaves, every other buffer as entered. -/
def W2 (c : Dev nD) : Valuation τ sig (Elt F) :=
  Function.update (W1 m ρ c) (Proc.devRef .tc main_v2 : DevRef τ sig) (outArr m ρ c)
theorem W2_main_v2 (c : Dev nD) : W2 m ρ c (Proc.devRef .tc main_v2) = outArr m ρ c := by
  unfold W2; exact Function.update_self _ _ _
theorem W2_of_ne (c : Dev nD) (b : Ref sig .tc) (hb : b ≠ main_v2) :
    W2 m ρ c (Proc.devRef .tc b) = W1 m ρ c (Proc.devRef .tc b) := by
  unfold W2; exact Function.update_of_ne (StableHlo.devRef_ne_of_ne hb) _ _
abbrev V2 : (c : Dev nD) → (b : Ref sig .tc) → Buf (Elt F) ((c : Thread nD τ).loc b) := fun c b => W2 m ρ c b

/-- After the result's reshape (the return). -/
abbrev W3 : Dev nD → Valuation τ sig (Elt F) := fun c => StableHlo.after hostOps1 (W2 m ρ c)

/-- No host operation and no write-back touches `main_arg0`: the fold at its buffer walks back to the launch memory. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- No host operation and no write-back touches `main_arg1`: the fold at its buffer walks back to the launch memory. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- The result: the one-entry array the region left, reshaped to a scalar. -/
theorem W3_main_v3 (c : Dev nD) :
    W3 m ρ c (Proc.devRef .tc main_v3) = shapeCast S_ (outArr m ρ c) shapeCasts_S1x1_S_ := by
  show StableHlo.after hostOps1 (W2 m ρ c) (Proc.devRef .tc main_v3) = _
  after_results
  exact congrArg (fun x => shapeCast S_ x shapeCasts_S1x1_S_) (W2_main_v2 m ρ c)

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The region as a segment -/

/-- ENTRY: every unscoped buffer at the entry contents is the pipeline's holdings of its arrays, the embeddings
    array's share dealt to its two windows, beside the buffers no window stages. -/
theorem entry_split (c : Dev nD) :
    (StableHlo.held (c : Thread nD τ) (Pipeline.ucRefs τ sig) (W1 m ρ c) : sProp 𝕄)
      ⊢ iprop((dat0 (V1 m ρ) c).arrays ((dat0 (V1 m ρ) c).arrAt · 0)
          ∗ Pipeline.unscopedRest (Ix := Unit) (Name := ℕ) (U := UR sig nD τ) (Lvl := ℕ) spec0 c (V1 m ρ c)) := by
  rw [← Pipeline.unscopedBufs_held (Ix := Unit) (Name := ℕ) (U := UR sig nD τ) (Lvl := ℕ) c (W1 m ρ c),
    Pipeline.unscopedBufs_split₀ cfgs 0 winFacts₀0.arr_unscoped c (V1 m ρ c)]
  exact sep_mono (arrays_of_arrBufs (V1 m ρ) c _ (fun _ => rfl)) .rfl

/-- EXIT: the pipeline's holdings at what it leaves, beside the buffers no window stages as entered, are every
    unscoped buffer at the exit contents. -/
theorem exit_join (c : Dev nD) :
    iprop((dat0 (V1 m ρ) c).arrays ((dat0 (V1 m ρ) c).arrAt · cfg0.N)
        ∗ Pipeline.unscopedRest (Ix := Unit) (Name := ℕ) (U := UR sig nD τ) (Lvl := ℕ) spec0 c (V1 m ρ c))
      ⊢ (StableHlo.held (c : Thread nD τ) (Pipeline.ucRefs τ sig) (W2 m ρ c) : sProp 𝕄) := by
  rw [← Pipeline.unscopedBufs_held (Ix := Unit) (Name := ℕ) (U := UR sig nD τ) (Lvl := ℕ) c (W2 m ρ c),
    Pipeline.unscopedBufs_split₀ cfgs 0 winFacts₀0.arr_unscoped c (V2 m ρ c),
    unscopedRest0_eq c (V2 m ρ c), unscopedRest0_eq c (V1 m ρ c)]
  refine sep_mono (arrBufs_of_arrays (V1 m ρ) c _ (V2 m ρ c) ?_ ?_ ?_ ?_ ?_) (Entails.of_eq ?_)
  · exact (((dat0 (V1 m ρ) c).arrAt_in 0 rfl _).trans (A_eq (V1 m ρ) c 0)).trans (W2_of_ne m ρ c main_arg0 (by decide)).symm
  · exact (((dat0 (V1 m ρ) c).arrAt_in 1 rfl _).trans (A_eq (V1 m ρ) c 1)).trans (W2_of_ne m ρ c main_arg0 (by decide)).symm
  · exact (((dat0 (V1 m ρ) c).arrAt_in 2 rfl _).trans (A_eq (V1 m ρ) c 2)).trans (W2_of_ne m ρ c main_v0 (by decide)).symm
  · exact (((dat0 (V1 m ρ) c).arrAt_in 3 rfl _).trans (A_eq (V1 m ρ) c 3)).trans (W2_of_ne m ρ c main_v1 (by decide)).symm
  · exact (W2_main_v2 m ρ c).symm
  · rw [show V2 m ρ c main_arg1 = V1 m ρ c main_arg1 from W2_of_ne m ρ c main_arg1 (by decide),
      show V2 m ρ c main_v3 = V1 m ρ c main_v3 from W2_of_ne m ρ c main_v3 (by decide)]

set_option backward.isDefEq.respectTransparency.types false in
/-- The kernel region over the thread state: entered from every unscoped buffer at `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry_split m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join m ρ c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]

theorem main_run (c : Dev nD) : main (F := F) c = Pipeline.Seg.run (segs m ρ) := (main_chain c).trans (by chain_rfl)

set_option backward.isDefEq.respectTransparency.types false in
/-- THE RUN.  From any memory with zero counters every weakly fair execution of @main terminates, nothing
    faulting, and every final state has the result at the last reshape of what the region left in the result array,
    and both argument arrays as launched. -/
theorem run_main : θ_run defs (onTc (τ := τ) (main (F := F))) ⟨m, fun _ => 0, ρ⟩ (fun r => ∀ c : Dev nD,
      r.2.mem ((c.tc : Thread nD τ).loc main_v3) = shapeCast S_ (outArr m ρ c) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v3 (by decide))).trans (W3_main_v3 m ρ c),
       (h c _ (mem_uc main_arg0 (by decide))).trans (W3_main_arg0 m ρ c),
       (h c _ (mem_uc main_arg1 (by decide))).trans (W3_main_arg1 m ρ c)⟩)

end Cert.Kernel.Frame

end
-- ==== Proof.KI.Conds.lean ====
/-
  The two conditionals of the kernel body, as propositions over the grid coordinates, and where on the
  16 × 16 grid each holds: the accumulator is reset at the first point only, and divided by the number of
  entries at the last point only.  Also the staging memrefs the body is called with at a point.
-/
import proofs.«119334_j11682311045878_1_alg».proof.Proof.Gen.KernelIdeal.Launch
import proofs.«119334_j11682311045878_1_alg».proof.Proof.Gen.KernelIdeal.Skeleton
import proofs.«119334_j11682311045878_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body resets the accumulator: both grid coordinates are zero. -/
abbrev condFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- The body divides the accumulator: both grid coordinates are fifteen. -/
abbrev condLast (i : grid0.Coords) : Prop :=
  (Scalar.cmpi .ne (Scalar.extui (Scalar.andi (Scalar.cmpi .eq (BitVec.ofNat 32 (i 0).val) 15#32) (Scalar.cmpi .eq (BitVec.ofNat 32 (i 1).val) 15#32))) 0#32) = 1#1

/-- Of the 256 points only point 0 resets. -/
theorem hcondFirst : ∀ t : Fin cfg0.N, condFirst (grid0.coords t) ↔ t.val = 0 :=
  (by decide +kernel : ∀ t : Fin grid0.N, condFirst (grid0.coords t) ↔ t.val = 0)

/-- Of the 256 points only point 255 divides. -/
theorem hcondLast : ∀ t : Fin cfg0.N, condLast (grid0.coords t) ↔ t.val = 255 :=
  (by decide +kernel : ∀ t : Fin grid0.N, condLast (grid0.coords t) ↔ t.val = 255)

/-- One staging buffer of the output window, through which its contents are stated. -/
abbrev VOut : View sig .tc .vmem S1x1 .f32 := (Memref.whole cc0_stg4_0 : Memref sig .tc .vmem S1x1 .f32).view

/-- Each window's current staging memref at point `t`, as the pipeline passes it, and its wholeness. -/
abbrev ms0 (t : Fin cfg0.N) : Memref sig .tc .vmem S512x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)

end Cert.KernelIdeal.Frame

end
-- ==== Proof.KI.RunFirst.lean ====
/-
  The kernel body run whole at the first point: the accumulator is reset to zero, then gains the tile's total.
-/
import proofs.«119334_j11682311045878_1_alg».proof.Proof.KI.Conds

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- What the body's stores leave in the output's staging memref, as pieces (last first), with the proof that on
    whole staging memrefs, the inputs' at their contents, the body runs to the continuation holding the inputs'
    as they were and the output's buffer with those pieces written. -/
noncomputable def kernelRunFirst (c : Dev nD) (i : grid0.Coords)
    (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (hc0 : condFirst i) (hc1 : ¬condLast i)
    (x0 : Vec F S512x128 .f32) (x1 : Vec F S512x128 .f32) (l2 : Vec F S512x1 .i32) (l3 : Vec F S1x512 .i32) :
    { L : List (View.Piece (Elt F) S1x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare l2 ∗ owns (c : Thread nD τ) arg5 fullShare l3
            ∗ (∃ d, owns (c : Thread nD τ) arg6 fullShare d)
            ∗ (iprop(owns (c : Thread nD τ) arg2 fullShare x0 ∗ owns (c : Thread nD τ) arg3 fullShare x1
                ∗ owns (c : Thread nD τ) arg4 fullShare l2 ∗ owns (c : Thread nD τ) arg5 fullShare l3
                ∗ (∃ f, arg6.view.loc (c : Thread nD τ) ↦[arg6.view.set]{fullShare} arg6.view.writes (Elt F) f L)) -∗ K ⟨⟩))
          ⊢ wp frame (wpE (defs₀ (F := F)) Variants.none c none) E (cc0_kernel i arg2 harg2 arg3 harg3 arg4 harg4 arg5 harg5 arg6 harg6) K } := by
  refine ⟨?_, fun E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Frame

end
-- ==== Proof.KI.RunMid.lean ====
/-
  The kernel body run whole at a point that neither resets nor divides: the accumulator, read at what the point before left, gains the tile's total.
-/
import proofs.«119334_j11682311045878_1_alg».proof.Proof.KI.Conds

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- What the body's stores leave in the output's staging memref, as pieces (last first), with the proof that on
    whole staging memrefs, the inputs' at their contents, the body runs to the continuation holding the inputs'
    as they were and the output's buffer with those pieces written. -/
noncomputable def kernelRunMid (c : Dev nD) (i : grid0.Coords)
    (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (hc0 : ¬condFirst i) (hc1 : ¬condLast i)
    (x0 : Vec F S512x128 .f32) (x1 : Vec F S512x128 .f32) (l2 : Vec F S512x1 .i32) (l3 : Vec F S1x512 .i32) (xo : Vec F S1x1 .f32) :
    { L : List (View.Piece (Elt F) S1x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare l2 ∗ owns (c : Thread nD τ) arg5 fullShare l3
            ∗ owns (c : Thread nD τ) arg6 fullShare xo
            ∗ (iprop(owns (c : Thread nD τ) arg2 fullShare x0 ∗ owns (c : Thread nD τ) arg3 fullShare x1
                ∗ owns (c : Thread nD τ) arg4 fullShare l2 ∗ owns (c : Thread nD τ) arg5 fullShare l3
                ∗ (∃ f, arg6.view.loc (c : Thread nD τ) ↦[arg6.view.set]{fullShare} arg6.view.writes (Elt F) f L)) -∗ K ⟨⟩))
          ⊢ wp frame (wpE (defs₀ (F := F)) Variants.none c none) E (cc0_kernel i arg2 harg2 arg3 harg3 arg4 harg4 arg5 harg5 arg6 harg6) K } := by
  refine ⟨?_, fun E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1
    obtain rfl := harg4.eq_unread hf2; obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Frame

end
-- ==== Proof.KI.RunLast.lean ====
/-
  The kernel body run whole at the last point: the accumulator gains the tile's total and is then divided by the number of entries.
-/
import proofs.«119334_j11682311045878_1_alg».proof.Proof.KI.Conds

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- What the body's stores leave in the output's staging memref, as pieces (last first), with the proof that on
    whole staging memrefs, the inputs' at their contents, the body runs to the continuation holding the inputs'
    as they were and the output's buffer with those pieces written. -/
noncomputable def kernelRunLast (c : Dev nD) (i : grid0.Coords)
    (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (hc0 : ¬condFirst i) (hc1 : condLast i)
    (x0 : Vec F S512x128 .f32) (x1 : Vec F S512x128 .f32) (l2 : Vec F S512x1 .i32) (l3 : Vec F S1x512 .i32) (xo : Vec F S1x1 .f32) :
    { L : List (View.Piece (Elt F) S1x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare l2 ∗ owns (c : Thread nD τ) arg5 fullShare l3
            ∗ owns (c : Thread nD τ) arg6 fullShare xo
            ∗ (iprop(owns (c : Thread nD τ) arg2 fullShare x0 ∗ owns (c : Thread nD τ) arg3 fullShare x1
                ∗ owns (c : Thread nD τ) arg4 fullShare l2 ∗ owns (c : Thread nD τ) arg5 fullShare l3
                ∗ (∃ f, arg6.view.loc (c : Thread nD τ) ↦[arg6.view.set]{fullShare} arg6.view.writes (Elt F) f L)) -∗ K ⟨⟩))
          ⊢ wp frame (wpE (defs₀ (F := F)) Variants.none c none) E (cc0_kernel i arg2 harg2 arg3 harg3 arg4 harg4 arg5 harg5 arg6 harg6) K } := by
  refine ⟨?_, fun E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1
    obtain rfl := harg4.eq_unread hf2; obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Frame

end
-- ==== Proof.KI.Accum.lean ====
/-
  The accumulation.  At every point the body adds the tile's total to the one-entry output buffer, which no
  write-back touches before the last point; so what the buffer holds after point n is determined by recursion on
  n: the reset-and-add at point 0, the add over what point n − 1 left at the points in between, the add followed
  by the division at point 255.  This module states that recursion, the pipeline's proof data over it — the two
  windows on the embeddings array each hold half of its share — and the body obligation at every point.
-/
import proofs.«119334_j11682311045878_1_alg».proof.Proof.KI.RunFirst
import proofs.«119334_j11682311045878_1_alg».proof.Proof.KI.RunMid
import proofs.«119334_j11682311045878_1_alg».proof.Proof.KI.RunLast

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not: unfetched, the
    block index has not moved. -/

theorem before_in0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What each case leaves in the output buffer -/

/-- The pieces the first-point run writes tile the one-entry block, so they cover it. -/
theorem coverFirst (c : Dev nD) (i : grid0.Coords)
    (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (hc0 : condFirst i) (hc1 : ¬condLast i)
    (x0 : Vec F S512x128 .f32) (x1 : Vec F S512x128 .f32) (l2 : Vec F S512x1 .i32) (l3 : Vec F S1x512 .i32) (y : S1x1.Idx) :
    ∃ pc ∈ (kernelRunFirst c i arg2 harg2 arg3 harg3 arg4 harg4 arg5 harg5 arg6 harg6 hc0 hc1 x0 x1 l2 l3).1, y ∈ pc.1.set :=
  View.cover_of_tiledL (kernelRunFirst c i arg2 harg2 arg3 harg3 arg4 harg4 arg5 harg5 arg6 harg6 hc0 hc1 x0 x1 l2 l3).1 S1x1.size (by sl_kernel_rfl) y

/-- What the first-point run leaves in the output's staging buffer: its pieces read back. -/
def outFirst (c : Dev nD) (i : grid0.Coords)
    (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (hc0 : condFirst i) (hc1 : ¬condLast i)
    (x0 : Vec F S512x128 .f32) (x1 : Vec F S512x128 .f32) (l2 : Vec F S512x1 .i32) (l3 : Vec F S1x512 .i32) : Vec F S1x1 .f32 :=
  VOut.read (Elt F) (VOut.writes (Elt F) VOut.junk (kernelRunFirst c i arg2 harg2 arg3 harg3 arg4 harg4 arg5 harg5 arg6 harg6 hc0 hc1 x0 x1 l2 l3).1)

/-- The pieces the mid-point run writes tile the one-entry block, so they cover it. -/
theorem coverMid (c : Dev nD) (i : grid0.Coords)
    (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (hc0 : ¬condFirst i) (hc1 : ¬condLast i)
    (x0 : Vec F S512x128 .f32) (x1 : Vec F S512x128 .f32) (l2 : Vec F S512x1 .i32) (l3 : Vec F S1x512 .i32) (xo : Vec F S1x1 .f32) (y : S1x1.Idx) :
    ∃ pc ∈ (kernelRunMid c i arg2 harg2 arg3 harg3 arg4 harg4 arg5 harg5 arg6 harg6 hc0 hc1 x0 x1 l2 l3 xo).1, y ∈ pc.1.set :=
  View.cover_of_tiledL (kernelRunMid c i arg2 harg2 arg3 harg3 arg4 harg4 arg5 harg5 arg6 harg6 hc0 hc1 x0 x1 l2 l3 xo).1 S1x1.size (by sl_kernel_rfl) y

/-- What the mid-point run leaves in the output's staging buffer: its pieces read back. -/
def outMid (c : Dev nD) (i : grid0.Coords)
    (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (hc0 : ¬condFirst i) (hc1 : ¬condLast i)
    (x0 : Vec F S512x128 .f32) (x1 : Vec F S512x128 .f32) (l2 : Vec F S512x1 .i32) (l3 : Vec F S1x512 .i32) (xo : Vec F S1x1 .f32) : Vec F S1x1 .f32 :=
  VOut.read (Elt F) (VOut.writes (Elt F) VOut.junk (kernelRunMid c i arg2 harg2 arg3 harg3 arg4 harg4 arg5 harg5 arg6 harg6 hc0 hc1 x0 x1 l2 l3 xo).1)

/-- The pieces the last-point run writes tile the one-entry block, so they cover it. -/
theorem coverLast (c : Dev nD) (i : grid0.Coords)
    (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (hc0 : ¬condFirst i) (hc1 : condLast i)
    (x0 : Vec F S512x128 .f32) (x1 : Vec F S512x128 .f32) (l2 : Vec F S512x1 .i32) (l3 : Vec F S1x512 .i32) (xo : Vec F S1x1 .f32) (y : S1x1.Idx) :
    ∃ pc ∈ (kernelRunLast c i arg2 harg2 arg3 harg3 arg4 harg4 arg5 harg5 arg6 harg6 hc0 hc1 x0 x1 l2 l3 xo).1, y ∈ pc.1.set :=
  View.cover_of_tiledL (kernelRunLast c i arg2 harg2 arg3 harg3 arg4 harg4 arg5 harg5 arg6 harg6 hc0 hc1 x0 x1 l2 l3 xo).1 S1x1.size (by sl_kernel_rfl) y

/-- What the last-point run leaves in the output's staging buffer: its pieces read back. -/
def outLast (c : Dev nD) (i : grid0.Coords)
    (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (hc0 : ¬condFirst i) (hc1 : condLast i)
    (x0 : Vec F S512x128 .f32) (x1 : Vec F S512x128 .f32) (l2 : Vec F S512x1 .i32) (l3 : Vec F S1x512 .i32) (xo : Vec F S1x1 .f32) : Vec F S1x1 .f32 :=
  VOut.read (Elt F) (VOut.writes (Elt F) VOut.junk (kernelRunLast c i arg2 harg2 arg3 harg3 arg4 harg4 arg5 harg5 arg6 harg6 hc0 hc1 x0 x1 l2 l3 xo).1)

/-! ## What the output buffer holds after each point -/

/-- The output's staging buffer after the body at position `n`, by recursion on `n`. -/
def outsAt0 (c : Dev nD) : (n : ℕ) → n < cfg0.N → Vec F S1x1 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩)
      ((hcondFirst ⟨0, hn⟩).mpr rfl) (fun h => absurd ((hcondLast ⟨0, hn⟩).mp h) (show ¬ (0 : ℕ) = 255 by decide))
      (iblk V c 0 ⟨0, hn⟩) (iblk V c 1 ⟨0, hn⟩) (iblk V c 2 ⟨0, hn⟩) (iblk V c 3 ⟨0, hn⟩)
  | n + 1, hn =>
    if h1 : n + 1 = 255 then
      outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩)
        (fun h => absurd ((hcondFirst ⟨n + 1, hn⟩).mp h) (Nat.succ_ne_zero n)) ((hcondLast ⟨n + 1, hn⟩).mpr h1)
        (iblk V c 0 ⟨n + 1, hn⟩) (iblk V c 1 ⟨n + 1, hn⟩) (iblk V c 2 ⟨n + 1, hn⟩) (iblk V c 3 ⟨n + 1, hn⟩) (outsAt0 c n (Nat.lt_of_succ_lt hn))
    else
      outMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩)
        (fun h => absurd ((hcondFirst ⟨n + 1, hn⟩).mp h) (Nat.succ_ne_zero n)) (fun h => h1 ((hcondLast ⟨n + 1, hn⟩).mp h))
        (iblk V c 0 ⟨n + 1, hn⟩) (iblk V c 1 ⟨n + 1, hn⟩) (iblk V c 2 ⟨n + 1, hn⟩) (iblk V c 3 ⟨n + 1, hn⟩) (outsAt0 c n (Nat.lt_of_succ_lt hn))

theorem outsAt0_first (c : Dev nD) (t : Fin cfg0.N) (h0 : t.val = 0) :
    outsAt0 V c t.val t.isLt = outFirst c (grid0.coords t) (ms0 t) (hs0 t) (ms1 t) (hs1 t) (ms2 t) (hs2 t) (ms3 t) (hs3 t) (ms4 t) (hs4 t)
      ((hcondFirst t).mpr h0) (fun h => absurd ((hcondLast t).mp h) (by omega)) (iblk V c 0 t) (iblk V c 1 t) (iblk V c 2 t) (iblk V c 3 t) := by
  obtain ⟨n, hn⟩ := t
  cases n with
  | zero => exact rfl
  | succ n => exact absurd h0 (Nat.succ_ne_zero n)

theorem outsAt0_last (c : Dev nD) (t : Fin cfg0.N) (h1 : t.val = 255) :
    outsAt0 V c t.val t.isLt = outLast c (grid0.coords t) (ms0 t) (hs0 t) (ms1 t) (hs1 t) (ms2 t) (hs2 t) (ms3 t) (hs3 t) (ms4 t) (hs4 t)
      (fun h => absurd ((hcondFirst t).mp h) (by omega)) ((hcondLast t).mpr h1) (iblk V c 0 t) (iblk V c 1 t) (iblk V c 2 t) (iblk V c 3 t)
      (outsAt0 V c (t.val - 1) (Nat.lt_of_le_of_lt (Nat.sub_le _ _) t.isLt)) := by
  obtain ⟨n, hn⟩ := t
  cases n with
  | zero => exact absurd h1 (show ¬ (0 : ℕ) = 255 by decide)
  | succ n => exact (dif_pos h1).trans rfl

theorem outsAt0_mid (c : Dev nD) (t : Fin cfg0.N) (h0 : t.val ≠ 0) (h1 : t.val ≠ 255) :
    outsAt0 V c t.val t.isLt = outMid c (grid0.coords t) (ms0 t) (hs0 t) (ms1 t) (hs1 t) (ms2 t) (hs2 t) (ms3 t) (hs3 t) (ms4 t) (hs4 t)
      (fun h => h0 ((hcondFirst t).mp h)) (fun h => h1 ((hcondLast t).mp h)) (iblk V c 0 t) (iblk V c 1 t) (iblk V c 2 t) (iblk V c 3 t)
      (outsAt0 V c (t.val - 1) (Nat.lt_of_le_of_lt (Nat.sub_le _ _) t.isLt)) := by
  obtain ⟨n, hn⟩ := t
  cases n with
  | zero => exact absurd rfl h0
  | succ n => exact (dif_neg h1).trans rfl

/-! ## The pipeline's proof data -/

/-- The share of its array each input window holds: the embeddings array is read through two windows, each
    holding half of it; the two label arrays are each one window's, whole. -/
def qs : Fin 5 → PosShare TreeShare
  | ⟨0, _⟩ => fullShare.left
  | ⟨1, _⟩ => fullShare.right
  | _ => fullShare

/-- The proof data of the pipeline on core `c`: the arrays as the region finds them; after the body at point `t`
    each input's buffer at its block and the output's at `outsAt0`; the invariant the scoped rest and the
    generator register, untouched; nothing owed. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outsAt0 V c t.val t.isLt
  Φ _ := Pipeline.ΦA spec0 c
  q := qs
  owed _ := 0

theorem A_eq (c : Dev nD) (w : Fin cfg0.W) : (dat0 V c).A w = V c (Pipeline.arrRef spec0 w) := by
  dsimp only [dat0]

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = iblk V c 3 t := by dsimp only [dat0]
theorem after_4 (c : Dev nD) (t : Fin cfg0.N) : (dat0 V c).after 4 t = outsAt0 V c t.val t.isLt := by dsimp only [dat0]

theorem before_0 (c : Dev nD) (t : Fin cfg0.N) (d) : (dat0 V c).before 0 t d = iblk V c 0 t :=
  before_in0_of V (dat0 V c) (A_eq V c 0) (after_0 V c) t d
theorem before_1 (c : Dev nD) (t : Fin cfg0.N) (d) : (dat0 V c).before 1 t d = iblk V c 1 t :=
  before_in1_of V (dat0 V c) (A_eq V c 1) (after_1 V c) t d
theorem before_2 (c : Dev nD) (t : Fin cfg0.N) (d) : (dat0 V c).before 2 t d = iblk V c 2 t :=
  before_in2_of V (dat0 V c) (A_eq V c 2) (after_2 V c) t d
theorem before_3 (c : Dev nD) (t : Fin cfg0.N) (d) : (dat0 V c).before 3 t d = iblk V c 3 t :=
  before_in3_of V (dat0 V c) (A_eq V c 3) (after_3 V c) t d

/-- Past the first point the output's staging buffer holds what the body left at the point before: the buffer is
    written back at the last point only, the window is live and uncut. -/
theorem before_4 (c : Dev nD) (t : Fin cfg0.N) (h0 : t.val ≠ 0) (d) :
    (dat0 V c).before 4 t d = outsAt0 V c (t.val - 1) (Nat.lt_of_le_of_lt (Nat.sub_le _ _) t.isLt) := by
  have hN : t.val < 256 := lt_of_lt_of_eq t.isLt (show cfg0.N = 256 from N_0)
  rw [Dat.before_out_kept _ 4 rfl t h0 (Bool.eq_false_iff.mpr fun h => by have := (flush0_4 _).mp h; dsimp only at this; omega)
    (fun _ => rfl) (fun _ _ => rfl)]
  dsimp only [dat0]

/-! ## The body obligation, at a generic point -/

def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d))
    ∗ (∃ d, owns (c : Thread nD τ) (ms4 t) fullShare ((dat0 V c).before 4 t d)))

def bodyPost (c : Dev nD) (t : Fin cfg0.N) : sProp 𝕄 :=
  iprop((dat0 V c).Φ t.succ ∗ (dat0 V c).owesAt () t.succ
    ∗ owns (c : Thread nD τ) (ms0 t) fullShare ((dat0 V c).after 0 t)
    ∗ owns (c : Thread nD τ) (ms1 t) fullShare ((dat0 V c).after 1 t)
    ∗ owns (c : Thread nD τ) (ms2 t) fullShare ((dat0 V c).after 2 t)
    ∗ owns (c : Thread nD τ) (ms3 t) fullShare ((dat0 V c).after 3 t)
    ∗ owns (c : Thread nD τ) (ms4 t) fullShare ((dat0 V c).after 4 t))

set_option maxHeartbeats 1600000 in
/-- The body at any point: the inputs' memrefs hold their blocks; the point is the first, the last or one in
    between, and past the first the output's buffer holds what the point before left; so that case's run applies. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat0 V c).Φ t.succ = (dat0 V c).Φ t.castSucc from rfl,
    show (dat0 V c).owesAt () t.succ = (dat0 V c).owesAt () t.castSucc from rfl,
    after_0, after_1, after_2, after_3, after_4]
  have hN : t.val < 256 := lt_of_lt_of_eq t.isLt (show cfg0.N = 256 from N_0)
  by_cases h0 : t.val = 0
  · rw [outsAt0_first V c t h0]
    unfold outFirst
    iintro ⟨HΦ, Ho, ⟨%d0, H0⟩, ⟨%d1, H1⟩, ⟨%d2, H2⟩, ⟨%d3, H3⟩, ⟨%d4, H4⟩⟩
    iapply ((kernelRunFirst c (grid0.coords t) _ _ _ _ _ _ _ _ _ _ ((hcondFirst t).mpr h0) (fun h => absurd ((hcondLast t).mp h) (by omega))
      (iblk V c 0 t) (iblk V c 1 t) (iblk V c 2 t) (iblk V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirst c _ _ _ _ _ _ _ _ _ _ _ _ _ _ _ _ _)
  · simp only [before_4 V c t h0]
    by_cases h1 : t.val = 255
    · rw [outsAt0_last V c t h1]
      unfold outLast
      iintro ⟨HΦ, Ho, ⟨%d0, H0⟩, ⟨%d1, H1⟩, ⟨%d2, H2⟩, ⟨%d3, H3⟩, ⟨%d4, H4⟩⟩
      iapply ((kernelRunLast c (grid0.coords t) _ _ _ _ _ _ _ _ _ _ (fun h => h0 ((hcondFirst t).mp h)) ((hcondLast t).mpr h1)
        (iblk V c 0 t) (iblk V c 1 t) (iblk V c 2 t) (iblk V c 3 t) _).2 Set.univ _)
      isplitl [H0]; · iexact H0
      isplitl [H1]; · iexact H1
      isplitl [H2]; · iexact H2
      isplitl [H3]; · iexact H3
      isplitl [H4]; · iexact H4
      iintro ⟨H0, H1, H2, H3, ⟨%e4, H4⟩⟩
      isplitl [HΦ]; · iexact HΦ
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLast c _ _ _ _ _ _ _ _ _ _ _ _ _ _ _ _ _ _)
    · rw [outsAt0_mid V c t h0 h1]
      unfold outMid
      iintro ⟨HΦ, Ho, ⟨%d0, H0⟩, ⟨%d1, H1⟩, ⟨%d2, H2⟩, ⟨%d3, H3⟩, ⟨%d4, H4⟩⟩
      iapply ((kernelRunMid c (grid0.coords t) _ _ _ _ _ _ _ _ _ _ (fun h => h0 ((hcondFirst t).mp h)) (fun h => h1 ((hcondLast t).mp h))
        (iblk V c 0 t) (iblk V c 1 t) (iblk V c 2 t) (iblk V c 3 t) _).2 Set.univ _)
      isplitl [H0]; · iexact H0
      isplitl [H1]; · iexact H1
      isplitl [H2]; · iexact H2
      isplitl [H3]; · iexact H3
      isplitl [H4]; · iexact H4
      iintro ⟨H0, H1, H2, H3, ⟨%e4, H4⟩⟩
      isplitl [HΦ]; · iexact HΦ
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverMid c _ _ _ _ _ _ _ _ _ _ _ _ _ _ _ _ _ _)

/-- The library's body obligation, at every point. -/
theorem body_obligation (c : Dev nD) : BodyObligation (dat0 (F := F) V c) (defs₀ (F := F)) Variants.none () Set.univ := fun t => by
  rw [bigSep_W0, bigSep_W0]
  exact sound_body V c t

end Cert.KernelIdeal.Frame

end
-- ==== Proof.KI.Shares.lean ====
/-
  The embeddings array is handed to the kernel twice: window 0 reads its row blocks, window 1 its column blocks.
  At the region's entry the array's full share is dealt to the two windows, half each; the label arrays and the
  result array are each one window's, whole.  At the exit the two halves, both still at the entry contents, are
  joined back.  This module states both directions between the distinct buffers behind the windows and the
  pipeline's per-window holdings.
-/
import proofs.«119334_j11682311045878_1_alg».proof.Proof.KI.Accum

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the five windows' arrays, one by one. -/
theorem arrBufs_list (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      = iprop((((c : Thread nD τ).loc main_arg0) ↦{fullShare} X main_arg0) ∗ (((c : Thread nD τ).loc main_v0) ↦{fullShare} X main_v0)
          ∗ (((c : Thread nD τ).loc main_v1) ↦{fullShare} X main_v1) ∗ (((c : Thread nD τ).loc main_v2) ↦{fullShare} X main_v2)) := by
  unfold Pipeline.arrBufs
  exact bigSep_eq_bigSepL_of_eq [main_arg0, main_v0, main_v1, main_v2] (by decide) (by decide) _

/-- The pipeline's holdings of its windows' arrays, one by one: the embeddings array twice, at the two halves. -/
theorem arrays_list (c : Dev nD) (G : (w : Fin cfg0.W) → Buf (Elt F) ((cfg0.win w).arr.view.loc (c : Thread nD τ))) :
    ((dat0 V c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_v1) ↦{fullShare} G 3)
          ∗ (((c : Thread nD τ).loc main_v2) ↦{fullShare} G 4)) := by
  unfold Dat.arrays
  rw [bigSep_W0]
  rw [(arr_whole0 0).set_eq_univ, (arr_whole0 2).set_eq_univ, (arr_whole0 3).set_eq_univ, (arr_whole0 4).set_eq_univ]
  rfl

/-- ENTRY: the buffers behind the arrays, whole at the entry contents, make the pipeline's holdings at those contents. -/
theorem arrays_of_arrBufs (c : Dev nD) (G : (w : Fin cfg0.W) → Buf (Elt F) ((cfg0.win w).arr.view.loc (c : Thread nD τ)))
    (hG : ∀ w, G w = V c (Pipeline.arrRef spec0 w)) :
    (Pipeline.arrBufs (Ix := Unit) (Name := ℕ) (U := UR sig nD τ) (Lvl := ℕ) spec0 c (V c) : sProp 𝕄) ⊢ (dat0 V c).arrays G := by
  rw [arrBufs_list, arrays_list, hG 0, hG 1, hG 2, hG 3, hG 4]
  iintro ⟨Ha, H0, H1, H2⟩
  ihave Hs := (pointsTo_share (PosShare.mem_left_op_right fullShare)).1 $$ Ha
  icases Hs with ⟨Hl, Hr⟩
  isplitl [Hl]; · iexact Hl
  isplitl [Hr]; · iexact Hr
  isplitl [H0]; · iexact H0
  isplitl [H1]; · iexact H1
  iexact H2

/-- EXIT: the pipeline's holdings, the two halves of the embeddings array at one contents, make the buffers behind
    the arrays whole at contents that agree with them. -/
theorem arrBufs_of_arrays (c : Dev nD) (G : (w : Fin cfg0.W) → Buf (Elt F) ((cfg0.win w).arr.view.loc (c : Thread nD τ)))
    (X : (b : Ref sig .tc) → Buf (Elt F) ((c : Thread nD τ).loc b))
    (h0 : G 0 = X main_arg0) (h1 : G 1 = X main_arg0) (h2 : G 2 = X main_v0) (h3 : G 3 = X main_v1) (h4 : G 4 = X main_v2) :
    ((dat0 V c).arrays G : sProp 𝕄) ⊢ Pipeline.arrBufs (Ix := Unit) (Name := ℕ) (U := UR sig nD τ) (Lvl := ℕ) spec0 c X := by
  rw [arrBufs_list, arrays_list, h0, h1, h2, h3, h4]
  iintro ⟨Hl, Hr, H0, H1, H2⟩
  isplitl [Hl Hr]
  · iapply (pointsTo_share (PosShare.mem_left_op_right fullShare)).2
    isplitl [Hl] <;> iassumption
  isplitl [H0]; · iexact H0
  isplitl [H1]; · iexact H1
  iexact H2

end Cert.KernelIdeal.Frame

end
-- ==== Proof.KI.Region.lean ====
/-
  The run of @main: two reshapes of the labels on the host, the kernel region, one reshape of the result.  Between
  two items the core holds every unscoped buffer whole at contents this module names: the launch memory, then the
  host reshapes applied, then the result array at what the region's one write-back leaves, then the last reshape
  applied.  The region is entered by dealing the embeddings array's share to its two windows and left by joining
  the halves; every weakly fair execution terminates, with the result at the last reshape of what the region
  left and both arguments as launched.
-/
import proofs.«119334_j11682311045878_1_alg».proof.Proof.KI.Shares
import Idealize.ShloMosaic.Lib.Pipeline.RegionsLoop
import Idealize.ShloMosaic.Lib.Pipeline.FrameSuffix

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the two label reshapes (the region's entry). -/
abbrev W1 : Dev nD → Valuation τ sig (Elt F) := fun c => StableHlo.after hostOps0 (W0 m ρ c)
/-- The same read at the TensorCore's references (what the region's proof data take). -/
abbrev V1 : (c : Dev nD) → (b : Ref sig .tc) → Buf (Elt F) ((c : Thread nD τ).loc b) := fun c b => W1 m ρ c b

/-- What the region leaves in the result array: the entry contents with the last point's block written back. -/
def outArr (c : Dev nD) : Buf (Elt F) ((c : Thread nD τ).loc main_v2) := (dat0 (V1 m ρ) c).arrAt 4 cfg0.N

/-- At the region's exit: the result array at what the pipeline leaves, every other buffer as entered. -/
def W2 (c : Dev nD) : Valuation τ sig (Elt F) :=
  Function.update (W1 m ρ c) (Proc.devRef .tc main_v2 : DevRef τ sig) (outArr m ρ c)
theorem W2_main_v2 (c : Dev nD) : W2 m ρ c (Proc.devRef .tc main_v2) = outArr m ρ c := by
  unfold W2; exact Function.update_self _ _ _
theorem W2_of_ne (c : Dev nD) (b : Ref sig .tc) (hb : b ≠ main_v2) :
    W2 m ρ c (Proc.devRef .tc b) = W1 m ρ c (Proc.devRef .tc b) := by
  unfold W2; exact Function.update_of_ne (StableHlo.devRef_ne_of_ne hb) _ _
abbrev V2 : (c : Dev nD) → (b : Ref sig .tc) → Buf (Elt F) ((c : Thread nD τ).loc b) := fun c b => W2 m ρ c b

/-- After the result's reshape (the return). -/
abbrev W3 : Dev nD → Valuation τ sig (Elt F) := fun c => StableHlo.after hostOps1 (W2 m ρ c)

/-- No host operation and no write-back touches `main_arg0`: the fold at its buffer walks back to the launch memory. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- No host operation and no write-back touches `main_arg1`: the fold at its buffer walks back to the launch memory. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- The result: the one-entry array the region left, reshaped to a scalar. -/
theorem W3_main_v3 (c : Dev nD) :
    W3 m ρ c (Proc.devRef .tc main_v3) = shapeCast S_ (outArr m ρ c) shapeCasts_S1x1_S_ := by
  show StableHlo.after hostOps1 (W2 m ρ c) (Proc.devRef .tc main_v3) = _
  after_results
  exact congrArg (fun x => shapeCast S_ x shapeCasts_S1x1_S_) (W2_main_v2 m ρ c)

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The region as a segment -/

/-- ENTRY: every unscoped buffer at the entry contents is the pipeline's holdings of its arrays, the embeddings
    array's share dealt to its two windows, beside the buffers no window stages. -/
theorem entry_split (c : Dev nD) :
    (StableHlo.held (c : Thread nD τ) (Pipeline.ucRefs τ sig) (W1 m ρ c) : sProp 𝕄)
      ⊢ iprop((dat0 (V1 m ρ) c).arrays ((dat0 (V1 m ρ) c).arrAt · 0)
          ∗ Pipeline.unscopedRest (Ix := Unit) (Name := ℕ) (U := UR sig nD τ) (Lvl := ℕ) spec0 c (V1 m ρ c)) := by
  rw [← Pipeline.unscopedBufs_held (Ix := Unit) (Name := ℕ) (U := UR sig nD τ) (Lvl := ℕ) c (W1 m ρ c),
    Pipeline.unscopedBufs_split₀ cfgs 0 winFacts₀0.arr_unscoped c (V1 m ρ c)]
  exact sep_mono (arrays_of_arrBufs (V1 m ρ) c _ (fun _ => rfl)) .rfl

/-- EXIT: the pipeline's holdings at what it leaves, beside the buffers no window stages as entered, are every
    unscoped buffer at the exit contents. -/
theorem exit_join (c : Dev nD) :
    iprop((dat0 (V1 m ρ) c).arrays ((dat0 (V1 m ρ) c).arrAt · cfg0.N)
        ∗ Pipeline.unscopedRest (Ix := Unit) (Name := ℕ) (U := UR sig nD τ) (Lvl := ℕ) spec0 c (V1 m ρ c))
      ⊢ (StableHlo.held (c : Thread nD τ) (Pipeline.ucRefs τ sig) (W2 m ρ c) : sProp 𝕄) := by
  rw [← Pipeline.unscopedBufs_held (Ix := Unit) (Name := ℕ) (U := UR sig nD τ) (Lvl := ℕ) c (W2 m ρ c),
    Pipeline.unscopedBufs_split₀ cfgs 0 winFacts₀0.arr_unscoped c (V2 m ρ c),
    unscopedRest0_eq c (V2 m ρ c), unscopedRest0_eq c (V1 m ρ c)]
  refine sep_mono (arrBufs_of_arrays (V1 m ρ) c _ (V2 m ρ c) ?_ ?_ ?_ ?_ ?_) (Entails.of_eq ?_)
  · exact (((dat0 (V1 m ρ) c).arrAt_in 0 rfl _).trans (A_eq (V1 m ρ) c 0)).trans (W2_of_ne m ρ c main_arg0 (by decide)).symm
  · exact (((dat0 (V1 m ρ) c).arrAt_in 1 rfl _).trans (A_eq (V1 m ρ) c 1)).trans (W2_of_ne m ρ c main_arg0 (by decide)).symm
  · exact (((dat0 (V1 m ρ) c).arrAt_in 2 rfl _).trans (A_eq (V1 m ρ) c 2)).trans (W2_of_ne m ρ c main_v0 (by decide)).symm
  · exact (((dat0 (V1 m ρ) c).arrAt_in 3 rfl _).trans (A_eq (V1 m ρ) c 3)).trans (W2_of_ne m ρ c main_v1 (by decide)).symm
  · exact (W2_main_v2 m ρ c).symm
  · rw [show V2 m ρ c main_arg1 = V1 m ρ c main_arg1 from W2_of_ne m ρ c main_arg1 (by decide),
      show V2 m ρ c main_v3 = V1 m ρ c main_v3 from W2_of_ne m ρ c main_v3 (by decide)]

set_option backward.isDefEq.respectTransparency.types false in
/-- The kernel region over the thread state: entered from every unscoped buffer at `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry_split m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join m ρ c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]

theorem main_run (c : Dev nD) : main (F := F) c = Pipeline.Seg.run (segs m ρ) := (main_chain c).trans (by chain_rfl)

set_option backward.isDefEq.respectTransparency.types false in
/-- THE RUN.  From any memory with zero counters every weakly fair execution of @main terminates, nothing
    faulting, and every final state has the result at the last reshape of what the region left in the result array,
    and both argument arrays as launched. -/
theorem run_main : θ_run defs (onTc (τ := τ) (main (F := F))) ⟨m, fun _ => 0, ρ⟩ (fun r => ∀ c : Dev nD,
      r.2.mem ((c.tc : Thread nD τ).loc main_v3) = shapeCast S_ (outArr m ρ c) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v3 (by decide))).trans (W3_main_v3 m ρ c),
       (h c _ (mem_uc main_arg0 (by decide))).trans (W3_main_arg0 m ρ c),
       (h c _ (mem_uc main_arg1 (by decide))).trans (W3_main_arg1 m ρ c)⟩)

end Cert.KernelIdeal.Frame

end
-- ==== Proof.KI.Pieces.lean ====
/-
  What each case of the body leaves in the one-entry output buffer, as the body's own arithmetic: the buffer is
  stored whole each time, so only the last store counts, and a load of the buffer after a store in the same run
  reads that store's value.  At the first point: the tile's total added to the zero just stored; at a point in
  between: added to what the buffer held; at the last point: that sum, divided.
-/
import proofs.«119334_j11682311045878_1_alg».proof.Proof.KI.Accum
import Idealize.ShloMosaic.Lib.Pipeline.Value

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem zeros2 : (![0, 0] : Fin 2 → Nat) = fun _ => 0 := by funext a; fin_cases a <;> rfl

/-- One point's update of the accumulator: the tile's total added to `prev`. -/
def addTile (i : grid0.Coords) (x0 : Vec F S512x128 .f32) (x1 : Vec F S512x128 .f32) (l2 : Vec F S512x1 .i32) (l3 : Vec F S1x512 .i32) (prev : Vec F S1x1 .f32) : Vec F S1x1 .f32 :=
  k0_pay1 (k0_pay5 (F := F) i) (k0_pay6 x0 x1 l2 l3) (k0_pay7 x0 x1) prev

theorem outMid_eq (c : Dev nD) (i : grid0.Coords)
    (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (hc0 : ¬condFirst i) (hc1 : ¬condLast i)
    (x0 : Vec F S512x128 .f32) (x1 : Vec F S512x128 .f32) (l2 : Vec F S512x1 .i32) (l3 : Vec F S1x512 .i32) (xo : Vec F S1x1 .f32) :
    outMid c i arg2 harg2 arg3 harg3 arg4 harg4 arg5 harg5 arg6 harg6 hc0 hc1 x0 x1 l2 l3 xo = addTile i x0 x1 l2 l3 xo := by
  have hz := zeros2
  unfold outMid addTile
  rw [View.read_writes_eq_canon _ _ _ (coverMid c i arg2 harg2 arg3 harg3 arg4 harg4 arg5 harg5 arg6 harg6 hc0 hc1 x0 x1 l2 l3 xo)]
  unfold kernelRunMid
  dsimp only
  sl_unfold_words
  rw [View.canon_unit_zero (S := S1x1) hz]
  simp only [View.readAt_eq_ld, harg2.read_unread, harg3.read_unread, harg4.read_unread, harg5.read_unread, harg6.read_unread,
    View.ld_unit_zero (S := S512x128) hz, View.ld_unit_zero (S := S512x1) hz, View.ld_unit_zero (S := S1x512) hz, View.ld_unit_zero (S := S1x1) hz]

theorem outFirst_eq (c : Dev nD) (i : grid0.Coords)
    (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (hc0 : condFirst i) (hc1 : ¬condLast i)
    (x0 : Vec F S512x128 .f32) (x1 : Vec F S512x128 .f32) (l2 : Vec F S512x1 .i32) (l3 : Vec F S1x512 .i32) :
    outFirst c i arg2 harg2 arg3 harg3 arg4 harg4 arg5 harg5 arg6 harg6 hc0 hc1 x0 x1 l2 l3 = addTile i x0 x1 l2 l3 (k0_pay3 (F := F)) := by
  have hz := zeros2
  unfold outFirst addTile
  rw [View.read_writes_eq_canon _ _ _ (coverFirst c i arg2 harg2 arg3 harg3 arg4 harg4 arg5 harg5 arg6 harg6 hc0 hc1 x0 x1 l2 l3)]
  unfold kernelRunFirst
  dsimp only
  sl_unfold_words
  rw [View.canon_cons_unit_zero (S := S1x1) hz, View.readCov_unit_zero (S := S1x1) _ hz]
  simp only [View.readAt_eq_ld, harg2.read_unread, harg3.read_unread, harg4.read_unread, harg5.read_unread, harg6.read_unread,
    View.ld_unit_zero (S := S512x128) hz, View.ld_unit_zero (S := S512x1) hz, View.ld_unit_zero (S := S1x512) hz, View.ld_unit_zero (S := S1x1) hz]

theorem outLast_eq (c : Dev nD) (i : grid0.Coords)
    (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1 .f32) (harg6 : arg6.IsWhole) (hc0 : ¬condFirst i) (hc1 : condLast i)
    (x0 : Vec F S512x128 .f32) (x1 : Vec F S512x128 .f32) (l2 : Vec F S512x1 .i32) (l3 : Vec F S1x512 .i32) (xo : Vec F S1x1 .f32) :
    outLast c i arg2 harg2 arg3 harg3 arg4 harg4 arg5 harg5 arg6 harg6 hc0 hc1 x0 x1 l2 l3 xo = k0_pay2 (addTile i x0 x1 l2 l3 xo) := by
  have hz := zeros2
  unfold outLast addTile
  rw [View.read_writes_eq_canon _ _ _ (coverLast c i arg2 harg2 arg3 harg3 arg4 harg4 arg5 harg5 arg6 harg6 hc0 hc1 x0 x1 l2 l3 xo)]
  unfold kernelRunLast
  dsimp only
  sl_unfold_words
  rw [View.canon_cons_unit_zero (S := S1x1) hz, View.readCov_unit_zero (S := S1x1) _ hz]
  simp only [View.readAt_eq_ld, harg2.read_unread, harg3.read_unread, harg4.read_unread, harg5.read_unread, harg6.read_unread,
    View.ld_unit_zero (S := S512x128) hz, View.ld_unit_zero (S := S512x1) hz, View.ld_unit_zero (S := S1x512) hz, View.ld_unit_zero (S := S1x1) hz]

end Cert.KernelIdeal.Frame

end
-- ==== Proof.Spec.lean ====
/-
  What both programs compute, as one function of the embeddings E (8192 rows of 128 extended reals) and the
  labels (8192 words): the mean over all ordered pairs (i, j) of the binary cross-entropy with logits, in its
  numerically stable form max(x, 0) − x·z + log(1 + e^{−|x|}), of the similarity x = ⟨E i, E j⟩ against the
  target z = [label i = label j], the diagonal pairs weighted zero.  The kernel adds the entries up tile by tile
  (a 16 × 16 grid of 512 × 512 tiles, row-major); the last section states that the tiles' totals, taken in that
  order, add up to the one sum over all pairs.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The embeddings' shape and the labels'. -/
abbrev SE : Shape := ⟨2, ![8192, 128]⟩
abbrev SLab : Shape := ⟨1, ![8192]⟩

/-- The similarity of rows i and j: their inner product. -/
def sim (E : SE.Idx → EReal) (i j : Fin 8192) : EReal := ∑ k : Fin 128, E (ix2 i k) * E (ix2 j k)

/-- The target: one when the two rows carry the same label word, else zero. -/
def same (lab : SLab.Idx → BitVec 32) (i j : Fin 8192) : EReal := if lab (ix1 i) = lab (ix1 j) then 1 else 0

/-- The weight: zero on the diagonal, one off it. -/
def offDiag (i j : ℕ) : EReal := if i = j then 0 else 1

/-- Binary cross-entropy with logits, stable form, of a logit x against a target z. -/
def bce (x z : EReal) : EReal := max x 0 - x * z + Ideal.log1p (Ideal.exp (-(max x (-x))))

/-- The weighted loss of the pair (i, j). -/
def entry (E : SE.Idx → EReal) (lab : SLab.Idx → BitVec 32) (i j : Fin 8192) : EReal :=
  offDiag i.val j.val * bce (sim E i j) (same lab i j)

/-- The sum over all ordered pairs. -/
def total (E : SE.Idx → EReal) (lab : SLab.Idx → BitVec 32) : EReal := ∑ i : Fin 8192, ∑ j : Fin 8192, entry E lab i j

/-- The mean: the total divided by 8192², the word 0x4C800000 being that number exactly. -/
def mean (E : SE.Idx → EReal) (lab : SLab.Idx → BitVec 32) : EReal :=
  Ideal.div (total E lab) (Ideal.ofBits .f32 0x4C800000#32)

/-! ## Tile by tile -/

/-- Row (or column) r of block a: the global index 512·a + r. -/
def rowOf (a : Fin 16) (r : Fin 512) : Fin 8192 := ⟨512 * a.val + r.val, by omega⟩

/-- The total of the tile at block row a, block column b. -/
def tileTotal (E : SE.Idx → EReal) (lab : SLab.Idx → BitVec 32) (a b : Fin 16) : EReal :=
  ∑ r : Fin 512, ∑ q : Fin 512, entry E lab (rowOf a r) (rowOf b q)

/-- The tile the grid's point number s works on (row-major over the 16 × 16 grid; any natural s, read modulo the grid). -/
def tileAt (E : SE.Idx → EReal) (lab : SLab.Idx → BitVec 32) (s : ℕ) : EReal :=
  tileTotal E lab ⟨s / 16 % 16, Nat.mod_lt _ (by decide)⟩ ⟨s % 16, Nat.mod_lt _ (by decide)⟩

end Cert.Spec

end
-- ==== Proof.TileSim.lean ====
/-
  The tile's similarities: the body transposes the column block and multiplies into a zero accumulator, so entry
  (r, q) of the product is the inner product of row r of the row block with row q of the column block.
-/
import proofs.«119334_j11682311045878_1_alg».proof.Proof.Gen.KernelIdeal.Skeleton
import proofs.«119334_j11682311045878_1_alg».proof.Proof.Spec

import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.TileValue

open Cert.KernelIdeal Cert.KernelIdeal.Gen Idealize.ShloMosaic Idealize.ShloMosaic.ValueIdx Cert.Spec

/-! ## The product's index maps, one axis at a time

The left operand is contracted along its axis 1 and the right operand along its axis 0; the free axes are the
left's axis 0 (the result's axis 0) and the right's axis 1 (the result's axis 1). -/

/-- The left operand's free axis carries the result's row. -/
theorem lhs_sim_0 (i : S512x512.Idx) (q : dot_S512x128_S128x512_S512x512_1_0_0_1_n_n.contr.Idx) :
    (dot_S512x128_S128x512_S512x512_1_0_0_1_n_n.lhsIdx i q 0).val = (i 0).val := by
  unfold DotDims.lhsIdx
  rw [dif_neg (show ¬(0 : Fin S512x128.rank) ∈ dot_S512x128_S128x512_S512x512_1_0_0_1_n_n.lhsBatch by decide), dif_pos (show (0 : Fin S512x128.rank) ∈ dot_S512x128_S128x512_S512x512_1_0_0_1_n_n.lhsNonContracting by decide)]
  rfl

/-- The left operand's contracted axis carries the summation coordinate. -/
theorem lhs_sim_1 (i : S512x512.Idx) (q : dot_S512x128_S128x512_S512x512_1_0_0_1_n_n.contr.Idx) :
    (dot_S512x128_S128x512_S512x512_1_0_0_1_n_n.lhsIdx i q 1).val = (q ⟨0, by decide⟩).val :=
  dot_S512x128_S128x512_S512x512_1_0_0_1_n_n.lhsIdx_val_of_single rfl i q

/-- The right operand's contracted axis carries the summation coordinate. -/
theorem rhs_sim_0 (i : S512x512.Idx) (q : dot_S512x128_S128x512_S512x512_1_0_0_1_n_n.contr.Idx) :
    (dot_S512x128_S128x512_S512x512_1_0_0_1_n_n.rhsIdx i q 0).val = (q ⟨0, by decide⟩).val :=
  dot_S512x128_S128x512_S512x512_1_0_0_1_n_n.rhsIdx_val_of_single rfl i q

/-- The right operand's free axis carries the result's column. -/
theorem rhs_sim_1 (i : S512x512.Idx) (q : dot_S512x128_S128x512_S512x512_1_0_0_1_n_n.contr.Idx) :
    (dot_S512x128_S128x512_S512x512_1_0_0_1_n_n.rhsIdx i q 1).val = (i 1).val := by
  unfold DotDims.rhsIdx
  rw [dif_neg (show ¬(1 : Fin S128x512.rank) ∈ dot_S512x128_S128x512_S512x512_1_0_0_1_n_n.rhsBatch by decide), dif_pos (show (1 : Fin S128x512.rank) ∈ dot_S512x128_S128x512_S512x512_1_0_0_1_n_n.rhsNonContracting by decide)]
  rfl

/-- A 512×128 by 128×512 product into the zero accumulator, read at (r, q): the sum over the contracted coordinate. -/
theorem matmul_sim_apply (a : FVec Ideal S512x128 .bf16) (b : FVec Ideal S128x512 .bf16) (r q : Fin 512) :
    FloatOps.matmul dot_S512x128_S128x512_S512x512_1_0_0_1_n_n none a b (constant (F := Ideal) S512x512 .f32 0x00000000#32) (ix2 r q)
      = ∑ k : Fin 128, a (ix2 r k) * b (ix2 k q) := by
  rw [Ideal.matmul_constant_zero_apply, ← Equiv.sum_comp (contrEquiv1 dot_S512x128_S128x512_S512x512_1_0_0_1_n_n 128 rfl rfl).symm]
  refine Finset.sum_congr rfl fun k _ => ?_
  have hk := contrEquiv1_symm_val dot_S512x128_S128x512_S512x512_1_0_0_1_n_n 128 rfl rfl k
  have el : dot_S512x128_S128x512_S512x512_1_0_0_1_n_n.lhsIdx (ix2 r q) ((contrEquiv1 dot_S512x128_S128x512_S512x512_1_0_0_1_n_n 128 rfl rfl).symm k) = ix2 r k := funext fun c => Fin.ext (by
    match c with
    | ⟨0, _⟩ => exact lhs_sim_0 _ _
    | ⟨1, _⟩ => exact (lhs_sim_1 _ _).trans hk)
  have er : dot_S512x128_S128x512_S512x512_1_0_0_1_n_n.rhsIdx (ix2 r q) ((contrEquiv1 dot_S512x128_S128x512_S512x512_1_0_0_1_n_n 128 rfl rfl).symm k) = ix2 k q := funext fun c => Fin.ext (by
    match c with
    | ⟨0, _⟩ => exact (rhs_sim_0 _ _).trans hk
    | ⟨1, _⟩ => exact rhs_sim_1 _ _)
  rw [el, er]

/-- The transposed column block at (k, q) is the column block at (q, k). -/
theorem transpose_sim_apply (y : FVec Ideal S512x128 .bf16) (k : Fin 128) (q : Fin 512) :
    transpose S128x512 [1, 0] y transposes_S512x128_p1_0_S128x512 (ix2 k q) = y (ix2 q k) := by
  refine transpose_apply [1, 0] y transposes_S512x128_p1_0_S128x512 (ix2 k q) (ix2 q k) fun b => ?_
  match b with
  | ⟨0, _⟩ => rfl
  | ⟨1, _⟩ => rfl

theorem sim_apply (x0 x1 : Vec Ideal S512x128 .f32) (r q : Fin 512) :
    k0_pay4 (F := Ideal) x0 x1 (ix2 r q) = ∑ k : Fin 128, x0 (ix2 r k) * x1 (ix2 q k) := by
  unfold k0_pay4
  refine (matmul_sim_apply _ _ r q).trans ?_
  refine Finset.sum_congr rfl fun k _ => ?_
  rw [transpose_sim_apply, truncf_apply, truncf_apply]

end Cert.KernelIdeal.TileValue

end
-- ==== Proof.TileWeight.lean ====
/-
  The tile's weights: the body compares the global row index 512·a + r with the global column index 512·b + q,
  both as 32-bit words (no wrap: they are below 8192), and selects zero on equality, one otherwise.
-/
import proofs.«119334_j11682311045878_1_alg».proof.Proof.Gen.KernelIdeal.Skeleton
import proofs.«119334_j11682311045878_1_alg».proof.Proof.Spec

import Idealize.ShloMosaic.Lib.Pipeline.Value
import Idealize.ShloMosaic.Lib.ValueLayout
import Idealize.ShloMosaic.PureOps.Ideal.Laws

noncomputable section

namespace Cert.KernelIdeal.TileValue

open Cert.KernelIdeal Cert.KernelIdeal.Gen Idealize.ShloMosaic Idealize.ShloMosaic.ValueIdx Cert.Spec

/-- The word 0x3F800000 is the number one, -/
private theorem one_f32 : (Scalar.ofBits .f32 0x3F800000#32 : Ideal .f32) = 1 := IdealRules.sign_bit.ideal_onePat .f32

/-- and the zero word is zero. -/
private theorem zero_f32 : (Scalar.ofBits .f32 0x00000000#32 : Ideal .f32) = 0 := Ideal.ofBits_zero_f32

/-- The word 512·a + r, computed in 32 bits from a block number below 16 and an offset below 512, does not wrap. -/
private theorem word_toNat (a r : ℕ) (ha : a < 16) (hr : r < 512) :
    (BitVec.ofNat 32 a * 512#32 + BitVec.ofNat 32 r).toNat = 512 * a + r := by
  simp only [BitVec.toNat_add, BitVec.toNat_mul, BitVec.toNat_ofNat]
  omega

/-- The equality comparison of two words is the one-bit word that says whether their values agree. -/
private theorem cmpi_eq_toNat (x y : BitVec 32) :
    IntOp.cmpi CmpIPredicate.eq x y = if x.toNat = y.toNat then 1#1 else 0#1 := by
  unfold IntOp.cmpi
  by_cases h : x = y
  · subst h; simp
  · have hne : x.toNat ≠ y.toNat := fun e => h (BitVec.eq_of_toNat_eq e)
    have hb : (x == y) = false := beq_eq_false_iff_ne.mpr h
    rw [if_neg hne]
    show BitVec.ofBool (x == y) = 0#1
    rw [hb]; rfl

theorem weight_apply (a b : Fin 16) (i : grid0.Coords) (hi0 : (i 0).val = a.val) (hi1 : (i 1).val = b.val) (r q : Fin 512) :
    k0_pay5 (F := Ideal) i (ix2 r q) = offDiag (512 * a.val + r.val) (512 * b.val + q.val) := by
  unfold k0_pay5
  dsimp only
  rw [select_apply, broadcast_apply, broadcast_apply]
  -- the two index words at the entry (r, q): the block's base plus the coordinate
  have hrow : addi (broadcast S512x512 (Scalar.muli (BitVec.ofNat 32 (i 0).val) 512#32))
      (iota Kind.tc S512x512 32 [0] iota_S512x512_d0_w32) (ix2 r q)
      = BitVec.ofNat 32 a.val * 512#32 + BitVec.ofNat 32 r.val := by
    show IntOp.addi _ (iota Kind.tc S512x512 32 [0] iota_S512x512_d0_w32 (ix2 r q)) = _
    rw [iota_single_apply, hi0]; rfl
  have hcol : addi (broadcast S512x512 (Scalar.muli (BitVec.ofNat 32 (i 1).val) 512#32))
      (iota Kind.tc S512x512 32 [1] iota_S512x512_d1_w32) (ix2 r q)
      = BitVec.ofNat 32 b.val * 512#32 + BitVec.ofNat 32 q.val := by
    show IntOp.addi _ (iota Kind.tc S512x512 32 [1] iota_S512x512_d1_w32 (ix2 r q)) = _
    rw [iota_single_apply, hi1]; rfl
  -- their comparison: neither word wraps, so the words agree exactly when the global indices do
  have hcond : cmpi CmpIPredicate.eq
        (addi (broadcast S512x512 (Scalar.muli (BitVec.ofNat 32 (i 0).val) 512#32))
          (iota Kind.tc S512x512 32 [0] iota_S512x512_d0_w32))
        (addi (broadcast S512x512 (Scalar.muli (BitVec.ofNat 32 (i 1).val) 512#32))
          (iota Kind.tc S512x512 32 [1] iota_S512x512_d1_w32))
        (ix2 r q) = if 512 * a.val + r.val = 512 * b.val + q.val then 1#1 else 0#1 := by
    show IntOp.cmpi CmpIPredicate.eq _ _ = _
    rw [hrow, hcol, cmpi_eq_toNat, word_toNat a.val r.val a.isLt r.isLt, word_toNat b.val q.val b.isLt q.isLt]
  rw [hcond]
  unfold offDiag
  by_cases h : 512 * a.val + r.val = 512 * b.val + q.val
  · rw [if_pos h, if_pos h, select_one]; exact zero_f32
  · rw [if_neg h, if_neg h, select_zero]; exact one_f32

end Cert.KernelIdeal.TileValue

end
-- ==== Proof.TileLoss.lean ====
/-
  The tile's losses and its total: entry by entry the body forms max(x, 0) − x·z and −|x| from the similarity x
  and the label comparison z, and the stored value is the accumulator plus the sum over the tile's rows of the sums
  over its columns of weight · (max(x, 0) − x·z + log1p(exp(−|x|))).
-/
import proofs.«119334_j11682311045878_1_alg».proof.Proof.Gen.KernelIdeal.Skeleton
import proofs.«119334_j11682311045878_1_alg».proof.Proof.Spec

import Idealize.ShloMosaic.Lib.Pipeline.Value
import Idealize.ShloMosaic.Lib.ValueLayout
import Idealize.ShloMosaic.PureOps.Ideal.Laws

noncomputable section

namespace Cert.KernelIdeal.TileValue

open Cert.KernelIdeal Cert.KernelIdeal.Gen Idealize.ShloMosaic Idealize.ShloMosaic.ValueIdx Cert.Spec

namespace Loss

variable {α : Type}

/-- A column broadcast over many columns reads, at (p, c), the column's entry at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector cast to a column reads, at (i, u), the vector at i, whatever the unit coordinate u. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The zero-extended one-bit equality of two words, read signed, is 1 when they agree and 0 otherwise. -/
theorem cmpi_eq_word (a b : BitVec 32) : ((IntOp.cmpi .eq a b).setWidth 32).toInt = if a = b then 1 else 0 := by
  unfold IntOp.cmpi
  by_cases h : a = b
  · rw [if_pos h]
    have hb : (a == b) = true := by simpa using h
    rw [hb]; rfl
  · rw [if_neg h]
    have hb : (a == b) = false := by simpa using h
    rw [hb]; rfl

/-- The sum along the columns of a 512 × 512 array, at row k. -/
theorem rowSum_apply (src : FVec Ideal S512x512 .f32) (hφ : FKind.Formats .f32)
    (hacc : (0x00000000#32 : BitVec 32) = FKind.add.neutral .f32 hφ) (k : Fin 512) :
    multiReduction (F := Ideal) .add [1] S512 src 0x00000000#32 reduces_S512x512_S512 hφ hacc (ix1 k)
      = ∑ q : Fin 512, src (ix2 k q) := by
  refine (Ideal.multiReduction_add_single src 0x00000000#32 reduces_S512x512_S512 hφ hacc (ix1 k)).trans ?_
  refine Finset.sum_congr rfl fun q _ => congrArg src ?_
  funext c
  exact Fin.ext (by match c with | ⟨0, _⟩ => rfl | ⟨1, _⟩ => rfl)

/-- The sum along the rows of a 512 × 1 column, at its one column w. -/
theorem colSum_apply (src : FVec Ideal S512x1 .f32) (hφ : FKind.Formats .f32)
    (hacc : (0x00000000#32 : BitVec 32) = FKind.add.neutral .f32 hφ) (w : Fin 1) :
    multiReduction (F := Ideal) .add [0] S1 src 0x00000000#32 reduces_S512x1_S1 hφ hacc (ix1 w)
      = ∑ r : Fin 512, src (ix2 r w) := by
  refine (Ideal.multiReduction_add_single src 0x00000000#32 reduces_S512x1_S1 hφ hacc (ix1 w)).trans ?_
  refine Finset.sum_congr rfl fun r _ => congrArg src ?_
  funext c
  exact Fin.ext (by match c with | ⟨0, _⟩ => rfl | ⟨1, _⟩ => rfl)

end Loss

/-- The label comparison of the tile's entry (r, q) as an extended real: one when the words agree. -/
def zAt (l2 : Vec Ideal S512x1 .i32) (l3 : Vec Ideal S1x512 .i32) (r q : Fin 512) : EReal :=
  if l2 (ix2 r (0 : Fin 1)) = l3 (ix2 (0 : Fin 1) q) then 1 else 0

theorem loss_apply (x0 x1 : Vec Ideal S512x128 .f32) (l2 : Vec Ideal S512x1 .i32) (l3 : Vec Ideal S1x512 .i32) (r q : Fin 512) :
    k0_pay6 (F := Ideal) x0 x1 l2 l3 (ix2 r q)
      = max (k0_pay4 (F := Ideal) x0 x1 (ix2 r q)) 0 - k0_pay4 (F := Ideal) x0 x1 (ix2 r q) * zAt l2 l3 r q := by
  show max (k0_pay4 (F := Ideal) x0 x1 (ix2 r q)) (Ideal.ofBits .f32 0x00000000#32)
      - k0_pay4 (F := Ideal) x0 x1 (ix2 r q) *
        (((((IntOp.cmpi .eq
          (broadcastTo S512x512 (shapeCast S512x1 l2 shapeCasts_S512x1_S512x1) broadcasts_S512x1_S512x512 (ix2 r q))
          (broadcastTo S512x512 (shapeCast S1x512 l3 shapeCasts_S1x512_S1x512) broadcasts_S1x512_S512x512 (ix2 r q))).setWidth 32).toInt : ℝ) : EReal))
      = _
  rw [shapeCast_self, shapeCast_self, Loss.broadcastTo_a1_ab_apply, broadcastTo_1b_ab_apply, Ideal.ofBits_zero_f32,
    Loss.cmpi_eq_word]
  unfold zAt
  by_cases h : l2 (ix2 r (0 : Fin 1)) = l3 (ix2 (0 : Fin 1) q)
  · rw [if_pos h, if_pos h]; simp
  · rw [if_neg h, if_neg h]; simp

theorem negabs_apply (x0 x1 : Vec Ideal S512x128 .f32) (r q : Fin 512) :
    k0_pay7 (F := Ideal) x0 x1 (ix2 r q)
      = -(max (k0_pay4 (F := Ideal) x0 x1 (ix2 r q)) (-(k0_pay4 (F := Ideal) x0 x1 (ix2 r q)))) := by
  show Ideal.ofBits .f32 0x00000000#32
      - max (k0_pay4 (F := Ideal) x0 x1 (ix2 r q)) (-(k0_pay4 (F := Ideal) x0 x1 (ix2 r q))) = _
  rw [Ideal.ofBits_zero_f32, zero_sub]

theorem acc_apply (v31 v35 v38 : FVec Ideal S512x512 .f32) (prev : Vec Ideal S1x1 .f32) (y : S1x1.Idx) :
    k0_pay1 (F := Ideal) v31 v35 v38 prev y
      = prev y + ∑ r : Fin 512, ∑ q : Fin 512, v31 (ix2 r q) * (v35 (ix2 r q) + Ideal.log1p (Ideal.exp (v38 (ix2 r q)))) := by
  obtain ⟨u, w, rfl⟩ : ∃ (u w : Fin 1), y = ix2 u w := ⟨y 0, y 1, eq_ix2 y⟩
  show shapeCast S1x1 prev shapeCasts_S1x1_S1x1 (ix2 u w)
      + shapeCast S1x1 (multiReduction (F := Ideal) .add [0] S1
          (shapeCast S512x1 (multiReduction (F := Ideal) .add [1] S512 (mulf v31 (addf v35 (log1p (exp v38))))
            0x00000000#32 reduces_S512x512_S512 (.inl rfl) rfl) shapeCasts_S512_S512x1)
          0x00000000#32 reduces_S512x1_S1 (.inl rfl) rfl) shapeCasts_S1_S1x1 (ix2 u w) = _
  rw [shapeCast_self, shapeCast_a_1a_apply]
  refine congrArg (prev (ix2 u w) + ·) ?_
  refine (Loss.colSum_apply _ _ _ w).trans ?_
  refine Finset.sum_congr rfl fun r _ => ?_
  rw [Loss.shapeCast_a_a1_apply]
  refine (Loss.rowSum_apply _ _ _ r).trans ?_
  rfl

end Cert.KernelIdeal.TileValue

end
-- ==== Proof.TileValue.lean ====
/-
  One grid point's arithmetic at the ideal values.  At the point with block row a and block column b the body is
  handed rows 512·a … 512·a + 511 of the embeddings, rows 512·b … of the embeddings again, and the matching label
  blocks; what it stores is what the accumulator held plus the total of that tile of the specification.
-/
import proofs.«119334_j11682311045878_1_alg».proof.Proof.Gen.KernelIdeal.Skeleton
import proofs.«119334_j11682311045878_1_alg».proof.Proof.Spec
import proofs.«119334_j11682311045878_1_alg».proof.Proof.TileSim
import proofs.«119334_j11682311045878_1_alg».proof.Proof.TileWeight
import proofs.«119334_j11682311045878_1_alg».proof.Proof.TileLoss
import Idealize.ShloMosaic.Lib.Pipeline.Value
import Idealize.ShloMosaic.Lib.ValueLayout
import Idealize.ShloMosaic.PureOps.Ideal.Laws

noncomputable section

namespace Cert.KernelIdeal.TileValue

open Cert.KernelIdeal Cert.KernelIdeal.Gen Idealize.ShloMosaic Idealize.ShloMosaic.ValueIdx Cert.Spec

theorem tile_apply (a b : Fin 16) (i : grid0.Coords) (hi0 : (i 0).val = a.val) (hi1 : (i 1).val = b.val)
    (E : S8192x128.Idx → EReal) (lab : S8192.Idx → BitVec 32)
    (x0 x1 : Vec Ideal S512x128 .f32) (l2 : Vec Ideal S512x1 .i32) (l3 : Vec Ideal S1x512 .i32)
    (hx0 : ∀ (r : Fin 512) (k : Fin 128), x0 (ix2 r k) = E (ix2 (rowOf a r) k))
    (hx1 : ∀ (q : Fin 512) (k : Fin 128), x1 (ix2 q k) = E (ix2 (rowOf b q) k))
    (hl2 : ∀ r : Fin 512, l2 (ix2 r (0 : Fin 1)) = lab (ix1 (rowOf a r)))
    (hl3 : ∀ q : Fin 512, l3 (ix2 (0 : Fin 1) q) = lab (ix1 (rowOf b q)))
    (prev : Vec Ideal S1x1 .f32) (y : S1x1.Idx) :
    k0_pay1 (F := Ideal) (k0_pay5 (F := Ideal) i) (k0_pay6 (F := Ideal) x0 x1 l2 l3) (k0_pay7 (F := Ideal) x0 x1) prev y
      = prev y + tileTotal E lab a b := by
  rw [acc_apply]
  refine congrArg (prev y + ·) ?_
  unfold tileTotal
  refine Finset.sum_congr rfl fun r _ => Finset.sum_congr rfl fun q _ => ?_
  -- the tile's similarity is the specification's, at the global rows
  have hX : k0_pay4 (F := Ideal) x0 x1 (ix2 r q) = sim E (rowOf a r) (rowOf b q) := by
    rw [sim_apply]
    unfold sim
    exact Finset.sum_congr rfl fun k _ => by rw [hx0, hx1]
  -- and so is the label comparison
  have hz : zAt l2 l3 r q = same lab (rowOf a r) (rowOf b q) := by
    unfold zAt same
    rw [hl2, hl3]
  rw [weight_apply a b i hi0 hi1, loss_apply, negabs_apply, hX, hz]
  rfl

end Cert.KernelIdeal.TileValue

end
-- ==== Proof.TileSums.lean ====
/-
  The 256 tiles' totals, taken in the grid's row-major order, add up to the sum over all ordered pairs: a pair
  (i, j) lies in exactly one tile, (i / 512, j / 512), at the place (i % 512, j % 512) in it.
-/
import proofs.«119334_j11682311045878_1_alg».proof.Proof.Spec
import Mathlib.Algebra.BigOperators.Fin
import Mathlib.Algebra.BigOperators.Group.Finset.Basic
import Mathlib.Data.Fintype.BigOperators
import Mathlib.Logic.Equiv.Fin.Basic

noncomputable section

namespace Cert.Spec

open Idealize.ShloMosaic Idealize.ShloMosaic.ValueIdx

section Reindex

variable {M : Type*} [AddCommMonoid M]

/-- A sum over the 8192 indices is the sum over the 16 blocks of the sum over the 512 places of a block. -/
theorem sum_rowOf (h : Fin 8192 → M) : ∑ i, h i = ∑ a : Fin 16, ∑ r : Fin 512, h (rowOf a r) := by
  have e := Equiv.sum_comp (finProdFinEquiv : Fin 16 × Fin 512 ≃ Fin 8192) h
  rw [← e, Fintype.sum_prod_type]
  refine Finset.sum_congr rfl fun a _ => Finset.sum_congr rfl fun r _ => ?_
  congr 1
  apply Fin.ext
  simp [finProdFinEquiv, rowOf, Nat.add_comm]

/-- The 256 grid points in row-major order are the 16 block rows, each with its 16 block columns. -/
theorem sum_grid (g : Fin 16 → Fin 16 → M) :
    ∑ s ∈ Finset.range 256, g ⟨s / 16 % 16, Nat.mod_lt _ (by decide)⟩ ⟨s % 16, Nat.mod_lt _ (by decide)⟩
      = ∑ a : Fin 16, ∑ b : Fin 16, g a b := by
  rw [Finset.sum_range]
  have e := Equiv.sum_comp (finProdFinEquiv : Fin 16 × Fin 16 ≃ Fin 256)
    (fun s : Fin 256 => g ⟨s.val / 16 % 16, Nat.mod_lt _ (by decide)⟩ ⟨s.val % 16, Nat.mod_lt _ (by decide)⟩)
  rw [← e, Fintype.sum_prod_type]
  refine Finset.sum_congr rfl fun a _ => Finset.sum_congr rfl fun b _ => ?_
  have ha : (⟨(finProdFinEquiv (a, b) : Fin 256).val / 16 % 16, Nat.mod_lt _ (by decide)⟩ : Fin 16) = a := by
    apply Fin.ext
    simp [finProdFinEquiv]
    omega
  have hb : (⟨(finProdFinEquiv (a, b) : Fin 256).val % 16, Nat.mod_lt _ (by decide)⟩ : Fin 16) = b := by
    apply Fin.ext
    simp [finProdFinEquiv]
  simp only [ha, hb]

end Reindex

theorem sum_tiles (E : SE.Idx → EReal) (lab : SLab.Idx → BitVec 32) :
    ∑ s ∈ Finset.range 256, tileAt E lab s = total E lab := by
  unfold tileAt
  rw [sum_grid (tileTotal E lab)]
  unfold total tileTotal
  rw [sum_rowOf]
  refine Finset.sum_congr rfl fun a _ => ?_
  rw [Finset.sum_comm]
  refine Finset.sum_congr rfl fun r _ => ?_
  rw [sum_rowOf]

end Cert.Spec

end
-- ==== Proof.KernelValue.lean ====
/-
  The value the kernel's program ends with, at the ideal values.  The region is entered with the embeddings as
  launched and the labels reshaped to a column and to a row; at the point with block row a = t / 16 and block column
  b = t % 16 the four input blocks are rows 512·a … of the embeddings, rows 512·b … of the embeddings, and the matching
  label blocks, so the body adds that tile's total to the accumulator (the tile's arithmetic is read elsewhere);
  by induction over the points the accumulator after point n < 255 holds the first n + 1 tiles' totals, and after
  the last point their sum over all 256 tiles, divided: the mean of the specification.  The one write-back puts it
  into the result array, which the last reshape hands out as a scalar.
-/
import proofs.«119334_j11682311045878_1_alg».proof.Proof.KI.Region
import proofs.«119334_j11682311045878_1_alg».proof.Proof.KI.Pieces
import proofs.«119334_j11682311045878_1_alg».proof.Proof.TileValue
import proofs.«119334_j11682311045878_1_alg».proof.Proof.TileSums

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.Spec

variable (m : (ℓ : Loc nD τ sig) → Buf (Elt Ideal) ℓ) (ρ : Dev nD → PrngReg)

/-- Core `c`'s embeddings and labels as launched. -/
abbrev embOf (c : Dev nD) : S8192x128.Idx → EReal := m ((c : Thread nD τ).loc main_arg0)
abbrev labOf (c : Dev nD) : S8192.Idx → BitVec 32 := m ((c : Thread nD τ).loc main_arg1)

/-! ## The region's entry contents -/

theorem V1_main_arg0 (c : Dev nD) : V1 m ρ c main_arg0 = embOf m c :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

theorem V1_main_v0 (c : Dev nD) : V1 m ρ c main_v0 = shapeCast S8192x1 (labOf m c) shapeCasts_S8192_S8192x1 := by
  show StableHlo.after hostOps0 (W0 m ρ c) (Proc.devRef .tc main_v0) = _
  after_results
  rfl

theorem V1_main_v1 (c : Dev nD) : V1 m ρ c main_v1 = shapeCast S1x8192 (labOf m c) shapeCasts_S8192_S1x8192 := by
  show StableHlo.after hostOps0 (W0 m ρ c) (Proc.devRef .tc main_v1) = _
  after_results
  rfl

/-! ## The grid's points and the windows' block indices, decided over the grid -/

theorem pointFacts : ∀ t : Fin cfg0.N,
    (grid0.coords t 0).val = t.val / 16 % 16 ∧ (grid0.coords t 1).val = t.val % 16
    ∧ win0_0.index t (0 : Fin 2) = t.val / 16 % 16 ∧ win0_0.index t (1 : Fin 2) = 0
    ∧ win0_1.index t (0 : Fin 2) = t.val % 16 ∧ win0_1.index t (1 : Fin 2) = 0
    ∧ win0_2.index t (0 : Fin 2) = t.val / 16 % 16 ∧ win0_2.index t (1 : Fin 2) = 0
    ∧ win0_3.index t (0 : Fin 2) = 0 ∧ win0_3.index t (1 : Fin 2) = t.val % 16
    ∧ win0_4.index t (0 : Fin 2) = 0 ∧ win0_4.index t (1 : Fin 2) = 0 :=
  (by decide +kernel : ∀ t : Fin grid0.N, _)

/-- The block row and the block column of point `t`. -/
abbrev rowBlk (t : Fin cfg0.N) : Fin 16 := ⟨t.val / 16 % 16, Nat.mod_lt _ (by decide)⟩
abbrev colBlk (t : Fin cfg0.N) : Fin 16 := ⟨t.val % 16, Nat.mod_lt _ (by decide)⟩

/-! ## The blocks at a point, entry by entry -/

theorem blk0_apply (c : Dev nD) (t : Fin cfg0.N) (r : Fin 512) (k : Fin 128) :
    iblk (V1 m ρ) c 0 t (ix2 r k) = embOf m c (ix2 (rowOf (rowBlk t) r) k) := by
  obtain ⟨-, -, e0, e1, -⟩ := pointFacts t
  show V1 m ρ c main_arg0 (((cfg0.win 0).blk t).view.emb (ix2 r k)) = _
  rw [V1_main_arg0]
  refine congrArg _ ?_
  funext a; apply Fin.ext
  match a with
  | ⟨0, _⟩ => show win0_0.index t (0 : Fin 2) * 512 + 1 * r.val = 512 * (t.val / 16 % 16) + r.val; omega
  | ⟨1, _⟩ => show win0_0.index t (1 : Fin 2) * 128 + 1 * k.val = k.val; omega

theorem blk1_apply (c : Dev nD) (t : Fin cfg0.N) (q : Fin 512) (k : Fin 128) :
    iblk (V1 m ρ) c 1 t (ix2 q k) = embOf m c (ix2 (rowOf (colBlk t) q) k) := by
  obtain ⟨-, -, -, -, e0, e1, -⟩ := pointFacts t
  show V1 m ρ c main_arg0 (((cfg0.win 1).blk t).view.emb (ix2 q k)) = _
  rw [V1_main_arg0]
  refine congrArg _ ?_
  funext a; apply Fin.ext
  match a with
  | ⟨0, _⟩ => show win0_1.index t (0 : Fin 2) * 512 + 1 * q.val = 512 * (t.val % 16) + q.val; omega
  | ⟨1, _⟩ => show win0_1.index t (1 : Fin 2) * 128 + 1 * k.val = k.val; omega

theorem blk2_apply (c : Dev nD) (t : Fin cfg0.N) (r : Fin 512) :
    iblk (V1 m ρ) c 2 t (ix2 r (0 : Fin 1)) = labOf m c (ix1 (rowOf (rowBlk t) r)) := by
  obtain ⟨-, -, -, -, -, -, e0, e1, -⟩ := pointFacts t
  show V1 m ρ c main_v0 (((cfg0.win 2).blk t).view.emb (ix2 r (0 : Fin 1))) = _
  rw [V1_main_v0]
  refine shapeCast_apply _ _ _ (ix1 (rowOf (rowBlk t) r)) ?_
  rw [Shape.rowMajor_val_one, Shape.rowMajor_val_two]
  show 512 * (t.val / 16 % 16) + r.val = (win0_2.index t (0 : Fin 2) * 512 + 1 * r.val) * 1 + (win0_2.index t (1 : Fin 2) * 1 + 1 * 0)
  omega

theorem blk3_apply (c : Dev nD) (t : Fin cfg0.N) (q : Fin 512) :
    iblk (V1 m ρ) c 3 t (ix2 (0 : Fin 1) q) = labOf m c (ix1 (rowOf (colBlk t) q)) := by
  obtain ⟨-, -, -, -, -, -, -, -, e0, e1, -⟩ := pointFacts t
  show V1 m ρ c main_v1 (((cfg0.win 3).blk t).view.emb (ix2 (0 : Fin 1) q)) = _
  rw [V1_main_v1]
  refine shapeCast_apply _ _ _ (ix1 (rowOf (colBlk t) q)) ?_
  rw [Shape.rowMajor_val_one, Shape.rowMajor_val_two]
  show 512 * (t.val % 16) + q.val = (win0_3.index t (0 : Fin 2) * 1 + 1 * 0) * 8192 + (win0_3.index t (1 : Fin 2) * 512 + 1 * q.val)
  omega

/-! ## One point's update -/

theorem pay3_apply (y : S1x1.Idx) : k0_pay3 (F := Ideal) y = 0 := by
  show Ideal.ofBits .f32 0x00000000#32 = 0
  exact Ideal.ofBits_zero_f32

theorem pay2_apply (v : Vec Ideal S1x1 .f32) (y : S1x1.Idx) :
    k0_pay2 (F := Ideal) v y = Ideal.div (v y) (Ideal.ofBits .f32 0x4C800000#32) := by
  unfold k0_pay2
  rw [shapeCast_self]
  rfl

/-- At point `t` the body adds the total of the tile at (t / 16, t % 16). -/
theorem addTile_at (c : Dev nD) (t : Fin cfg0.N) (prev : Vec Ideal S1x1 .f32) (y : S1x1.Idx) :
    addTile (F := Ideal) (grid0.coords t) (iblk (V1 m ρ) c 0 t) (iblk (V1 m ρ) c 1 t) (iblk (V1 m ρ) c 2 t) (iblk (V1 m ρ) c 3 t) prev y
      = prev y + tileAt (embOf m c) (labOf m c) t.val := by
  obtain ⟨g0, g1, -⟩ := pointFacts t
  exact TileValue.tile_apply (rowBlk t) (colBlk t) (grid0.coords t) g0 g1 (embOf m c) (labOf m c) _ _ _ _
    (blk0_apply m ρ c t) (blk1_apply m ρ c t) (blk2_apply m ρ c t) (blk3_apply m ρ c t) prev y

/-! ## The accumulator after each point -/

theorem outsAt0_lt (c : Dev nD) : ∀ (n : ℕ) (hn : n < cfg0.N), n < 255 → ∀ y : S1x1.Idx,
    outsAt0 (V1 m ρ) c n hn y = ∑ s ∈ Finset.range (n + 1), tileAt (embOf m c) (labOf m c) s
  | 0, hn, _, y => by
    refine (congrFun (outsAt0_first (V1 m ρ) c ⟨0, hn⟩ rfl) y).trans ?_
    rw [outFirst_eq, addTile_at m ρ c ⟨0, hn⟩, pay3_apply, zero_add, Finset.sum_range_one]
  | n + 1, hn, h, y => by
    refine (congrFun (outsAt0_mid (V1 m ρ) c ⟨n + 1, hn⟩ (Nat.succ_ne_zero n) (by show n + 1 ≠ 255; omega)) y).trans ?_
    rw [outMid_eq, addTile_at m ρ c ⟨n + 1, hn⟩, Finset.sum_range_succ _ (n + 1)]
    exact congrArg (· + _) (outsAt0_lt c n (Nat.lt_of_succ_lt hn) (by omega) y)

theorem outsAt0_final (c : Dev nD) (hn : 255 < cfg0.N) (y : S1x1.Idx) :
    outsAt0 (V1 m ρ) c 255 hn y = mean (embOf m c) (labOf m c) := by
  refine (congrFun (outsAt0_last (V1 m ρ) c ⟨255, hn⟩ rfl) y).trans ?_
  rw [outLast_eq, pay2_apply, addTile_at m ρ c ⟨255, hn⟩]
  have h254 := outsAt0_lt m ρ c 254 (Nat.lt_trans (by decide : 254 < 255) hn) (by decide) y
  show Ideal.div (outsAt0 (V1 m ρ) c 254 _ y + tileAt (embOf m c) (labOf m c) 255) _ = _
  rw [h254, ← Finset.sum_range_succ _ 255, sum_tiles]
  rfl

/-! ## The result -/

theorem lt255 : 255 < cfg0.N := lt_of_lt_of_eq (by decide : (255 : ℕ) < 256) (N_0.symm : (256 : ℕ) = cfg0.N)

/-- An index of the result array is in point `t`'s block iff each coordinate is in the block's range on its axis. -/
theorem mem_blk4 (t : Fin cfg0.N) (i : S1x1.Idx) :
    i ∈ ((cfg0.win 4).blk t).view.set ↔ ∀ a : Fin 2, win0_4.index t a * S1x1.size a ≤ (i a).val ∧ (i a).val < win0_4.index t a * S1x1.size a + S1x1.size a := by
  show i ∈ ((View.whole main_v2).slice (win0_4.rect t)).set ↔ _
  rw [View.set_slice_whole, Rect.mem_set_unit]
  exact Iff.rfl

theorem outArr_eq (c : Dev nD) : outArr m ρ c = fun _ => mean (embOf m c) (labOf m c) := by
  unfold outArr
  refine (dat0 (V1 m ρ) c).arrAt_eq_of_cover 4 _ (fun t hf => ?_) (fun i => ?_)
  · have ht : t.val = 255 := by
      have h1 := (flush0_4 t).mp hf
      have h2 : t.val < 256 := lt_of_lt_of_eq t.isLt N_0
      omega
    obtain ⟨n, hn⟩ := t
    have ht' : n = 255 := ht
    subst ht'
    funext j
    show (dat0 (V1 m ρ) c).after 4 ⟨255, hn⟩ j = _
    rw [after_4]
    exact outsAt0_final m ρ c hn j
  · refine ⟨⟨255, lt255⟩, (flush0_4 _).mpr rfl, (mem_blk4 ⟨255, lt255⟩ i).mpr ?_⟩
    intro a
    obtain ⟨-, -, -, -, -, -, -, -, -, -, e0, e1⟩ := pointFacts ⟨255, lt255⟩
    match a with
    | ⟨0, _⟩ =>
      show win0_4.index ⟨255, lt255⟩ (0 : Fin 2) * 1 ≤ (i 0).val ∧ (i 0).val < win0_4.index ⟨255, lt255⟩ (0 : Fin 2) * 1 + 1
      have h : (i 0).val < 1 := (i 0).isLt
      omega
    | ⟨1, _⟩ =>
      show win0_4.index ⟨255, lt255⟩ (1 : Fin 2) * 1 ≤ (i 1).val ∧ (i 1).val < win0_4.index ⟨255, lt255⟩ (1 : Fin 2) * 1 + 1
      have h : (i 1).val < 1 := (i 1).isLt
      omega

/-- THE KERNEL'S RESULT: the scalar the last reshape hands out is the mean of the specification. -/
theorem result_eq (c : Dev nD) :
    shapeCast S_ (outArr m ρ c) shapeCasts_S1x1_S_ = fun _ => mean (embOf m c) (labOf m c) := by
  rw [outArr_eq]
  rfl

end Cert.KernelIdeal.Frame

end
-- ==== Proof.RefValue.lean ====
/-
  The reference computes the mean of the specification: its similarity matrix is the inner products, its target
  matrix the label equalities, its weight one minus the identity, its loss the stable cross-entropy, and its mean
  the total over all pairs divided by 8192².
-/
import proofs.«119334_j11682311045878_1_alg».proof.Proof.Gen.ReferenceIdeal.Read
import proofs.«119334_j11682311045878_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The word 0x3F800000 encodes the number one. -/
theorem ofBits_one_f32 : Ideal.ofBits .f32 0x3F800000#32 = 1 := by
  simp [Ideal.ofBits, Ideal.ieee, -EReal.coe_mul]; norm_num

/-- An equality test's one-bit word, read as an unsigned number, is the indicator of the equality. -/
theorem uitofp_cmpi_eq {w : Nat} (a b : BitVec w) :
    (FloatOps.uitofp (F := Ideal) .f32 (IntOp.cmpi .eq a b)) = (if a = b then (1 : EReal) else 0) := by
  show (((BitVec.ofBool (a == b)).toNat : ℝ) : EReal) = _
  by_cases h : a = b
  · simp [h]
  · simp [h]

/-- The reference's similarity matrix at (i, j) is the inner product of rows i and j. -/
theorem v0_sim (x0 : (⟨S8192x128, .f32⟩ : BufTy).Contents (Elt Ideal)) (i j : Fin 8192) :
    val_main_v0 (F := Ideal) x0 (ix2 i j) = Cert.Spec.sim x0 i j := by
  rw [val_main_v0_apply]
  unfold Cert.Spec.sim
  refine Finset.sum_congr rfl fun k _ => ?_
  have el : lidx_main_v0 (ix2 i j) k = ix2 i k := by
    funext a; match a with | ⟨0, _⟩ => rfl | ⟨1, _⟩ => rfl
  have er : ridx_main_v0 (ix2 i j) k = ix2 j k := by
    funext a; match a with | ⟨0, _⟩ => rfl | ⟨1, _⟩ => rfl
  rw [el, er]

/-- The reference's target matrix at (i, j) is one when rows i and j carry the same label, else zero. -/
theorem v6_same (x1 : (⟨S8192, .i32⟩ : BufTy).Contents (Elt Ideal)) (i j : Fin 8192) :
    val_main_v6 (F := Ideal) x1 (ix2 i j) = Cert.Spec.same x1 i j := by
  rw [val_main_v6_apply, val_main_v5_apply, val_main_v3_apply, val_main_v4_apply, val_main_v1_apply, val_main_v2_apply,
    uitofp_cmpi_eq]
  have e1 : idx_main_v1 (idx_main_v3 (ix2 i j)) = ix1 j := by
    funext a; match a with | ⟨0, _⟩ => rfl
  have e2 : idx_main_v2 (idx_main_v4 (ix2 i j)) = ix1 i := by
    funext a; match a with | ⟨0, _⟩ => rfl
  rw [e1, e2]
  unfold Cert.Spec.same
  by_cases h : x1 (ix1 i) = x1 (ix1 j)
  · rw [if_pos h, if_pos h.symm]
  · rw [if_neg h, if_neg (fun h' => h h'.symm)]

/-- The reference's weight matrix at (i, j) is zero on the diagonal and one off it. -/
theorem v14_offDiag (i j : Fin 8192) :
    val_main_v14 (F := Ideal) (ix2 i j) = Cert.Spec.offDiag i.val j.val := by
  rw [val_main_v14_apply, val_main_v13_apply, val_main_cst_apply, val_main_v12_apply, val_main_v11_apply,
    val_main_v10_apply, val_main_v7_apply, val_main_v8_apply, val_main_v9_apply, val_main_c_apply, uitofp_cmpi_eq,
    Ideal.ofBits_def, ofBits_one_f32, Ideal.subf_def]
  unfold Cert.Spec.offDiag
  have hi := i.isLt
  have hj := j.isLt
  have hw : (IntOp.addi (BitVec.ofNat 32 ((ix2 i j : S8192x8192.Idx) 0).val) 0#32 = BitVec.ofNat 32 ((ix2 i j : S8192x8192.Idx) 1).val) ↔ i.val = j.val := by
    show (BitVec.ofNat 32 i.val + 0#32 = BitVec.ofNat 32 j.val) ↔ _
    rw [BitVec.add_zero]
    constructor
    · intro h
      have := congrArg BitVec.toNat h
      simp only [BitVec.toNat_ofNat] at this
      omega
    · intro h; rw [h]
  by_cases h : i.val = j.val
  · rw [if_pos (hw.mpr h), if_pos h, ← EReal.coe_one, ← EReal.coe_sub, sub_self, EReal.coe_zero]
  · rw [if_neg (fun h' => h (hw.mp h')), if_neg h]; simp

/-- The reference's loss matrix at (i, j) is the weighted loss of the pair (i, j). -/
theorem v24_entry (x0 : (⟨S8192x128, .f32⟩ : BufTy).Contents (Elt Ideal)) (x1 : (⟨S8192, .i32⟩ : BufTy).Contents (Elt Ideal))
    (i j : Fin 8192) : val_main_v24 (F := Ideal) x0 x1 (ix2 i j) = Cert.Spec.entry x0 x1 i j := by
  rw [val_main_v24_apply, val_main_v23_apply, val_main_v18_apply, val_main_v16_apply, val_main_v17_apply,
    val_main_v22_apply, val_main_v21_apply, val_main_v20_apply, val_main_v19_apply, val_main_v15_apply,
    val_main_cst_0_apply, v14_offDiag, v6_same, v0_sim]
  simp only [Ideal.mulf_def, Ideal.addf_def, Ideal.subf_def, Ideal.maximumf_def, Ideal.hostUnary_log1p_def,
    Ideal.hostUnary_exp_def, Ideal.hostNegf_def, Ideal.negf_def, Ideal.hostAbsf_def, Ideal.absf_def, Ideal.ofBits_def,
    Ideal.ofBits_zero_f32]
  rfl

theorem ref_mean (x0 : (⟨S8192x128, .f32⟩ : BufTy).Contents (Elt Ideal)) (x1 : (⟨S8192, .i32⟩ : BufTy).Contents (Elt Ideal)) :
    val_main_v26 (F := Ideal) x0 x1 = fun _ => Cert.Spec.mean x0 x1 := by
  funext i
  rw [val_main_v26_apply, val_main_v25_apply, val_main_cst_1_apply, val_main_cst_2_apply, Ideal.hostDivf_def,
    Ideal.ofBits_def, Ideal.ofBits_def, Ideal.ofBits_zero_f32, zero_add, sum_idx2]
  unfold Cert.Spec.mean Cert.Spec.total
  congr 1
  exact Finset.sum_congr rfl fun a _ => Finset.sum_congr rfl fun b _ => v24_entry x0 x1 a b

end Cert.ReferenceIdeal.RefValue

end
-- ==== Proof.lean ====
/-
  The certificate's five claims.

  Both printed programs of the kernel run to the end from any memory, faulting nowhere, and leave their two
  arguments unchanged: @main is two label reshapes, one kernel region on a 16 × 16 grid, one reshape of the result;
  the region reads the embeddings through two windows, which share the array's buffer half and half, and carries a
  one-entry accumulator across the points.  The reference is a straight line of host operations.  The idealization
  rewrote nothing.  At the ideal values both programs end with the same scalar: the mean over all ordered pairs of
  the stable cross-entropy of the pair's similarity against the equality of its labels, diagonal pairs weighted
  zero.  The kernel reaches it as a sum of 256 tile totals added in the grid's order, the reference as one sum over
  all pairs; in the extended reals addition is commutative and associative, so the two agree, and no finiteness of
  the inputs is used.
-/
import proofs.«119334_j11682311045878_1_alg».proof.Defs
import proofs.«119334_j11682311045878_1_alg».proof.Proof.Gen.Kernel
import proofs.«119334_j11682311045878_1_alg».proof.Proof.Gen.KernelIdeal
import proofs.«119334_j11682311045878_1_alg».proof.Proof.Gen.ReferenceIdeal
import proofs.«119334_j11682311045878_1_alg».proof.Proof.Gen.Pre_finite_inputs
import proofs.«119334_j11682311045878_1_alg».proof.Proof.Gen.ReferenceIdeal.Run
import proofs.«119334_j11682311045878_1_alg».proof.Proof.Gen.ReferenceIdeal.Read
import proofs.«119334_j11682311045878_1_alg».proof.Proof.K.Region
import proofs.«119334_j11682311045878_1_alg».proof.Proof.KI.Region
import proofs.«119334_j11682311045878_1_alg».proof.Proof.KernelValue
import proofs.«119334_j11682311045878_1_alg».proof.Proof.RefValue

noncomputable section

namespace Cert.Proof

open Idealize.ShloMosaic Idealize.ShloMosaic.TcCoe Idealize.SL.Sem

/-- The word-level kernel program runs, and its arguments end as launched. -/
theorem frame_k : Cert.frame_Kernel := fun m ρ _ =>
  (θ_run Cert.Kernel.defs _ _).mono (fun _ h c => (h c).2) (Cert.Kernel.Frame.run_main (F := Bits) m ρ)

/-- The idealized kernel program runs, and its arguments end as launched. -/
theorem frame_ki : Cert.frame_KernelIdeal := fun m ρ _ =>
  (θ_run Cert.KernelIdeal.defs _ _).mono (fun _ h c => (h c).2) (Cert.KernelIdeal.Frame.run_main (F := Ideal) m ρ)

/-- The reference runs, and its arguments end as launched. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the mean of the specification at the shared arguments. -/
theorem algebraic : Cert.algebraic_KernelIdeal_ReferenceIdeal := by
  intro m ρ m' ρ' _ hagree
  refine ⟨fun c => fun _ => Cert.Spec.mean (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Frame.result_eq m ρ c), (h c).2⟩)
      (Cert.KernelIdeal.Frame.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v26_eq, Cert.ReferenceIdeal.RefValue.ref_mean, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
